-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S1024x512 : Shape := ⟨2, ![1024, 512]⟩
abbrev S1024 : Shape := ⟨1, ![1024]⟩
abbrev S512x512 : Shape := ⟨2, ![512, 512]⟩
abbrev S512 : Shape := ⟨1, ![512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_arg11 : FVec F S512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  main_v58

def fn_part2 {F : FTy → Type} [FloatOps F] (main_arg7 : FVec F S512x512 .f32) (main_arg8 : FVec F S1024 .f32) (main_arg9 : FVec F S1024 .f32) (main_arg10 : FVec F S512 .f32) (main_arg11 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_v48 main_v49 main_v50

def fn_part1 {F : FTy → Type} [FloatOps F] (main_arg4 : FVec F S1024x512 .f32) (main_arg5 : FVec F S512x512 .f32) (main_arg6 : FVec F S512 .f32) (main_arg7 : FVec F S512x512 .f32) (main_arg8 : FVec F S1024 .f32) (main_arg9 : FVec F S1024 .f32) (main_arg10 : FVec F S512 .f32) (main_arg11 : FVec F S512 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S65536x512 .f32) (main_arg1 : FVec F S65536x512 .f32) (main_arg2 : FVec F S1024x512 .f32) (main_arg3 : FVec F S1024 .f32) (main_arg4 : FVec F S1024x512 .f32) (main_arg5 : FVec F S512x512 .f32) (main_arg6 : FVec F S512 .f32) (main_arg7 : FVec F S512x512 .f32) (main_arg8 : FVec F S1024 .f32) (main_arg9 : FVec F S1024 .f32) (main_arg10 : FVec F S512 .f32) (main_arg11 : FVec F S512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S65536x512 .f32 := Host.absf main_arg1
  let main_cst_0 : FVec F S_ .f32 := constant S_ .f32 0x7F800000#32
  let main_v5 : FVec F S65536x512 .f32 := broadcastInDim S65536x512 ![] bcast_S_S65536x512 main_cst_0
  let main_v6 : IVec S65536x512 1 := cmpf .olt main_v4 main_v5
  let main_c_1 : IVec S_ 1 := constantI S_ 1 1#1
  let main_v7 : IVec S_ 1 := (fun x v => Host.reduce IntOp.andi x v reducesTo_S65536x512_S_d0_1 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_v13 main_v16
-- ==== Kernel.lean ====
abbrev S65536x512 : Shape := ⟨2, ![65536, 512]⟩
abbrev S1024x512 : Shape := ⟨2, ![1024, 512]⟩
abbrev S1024 : Shape := ⟨1, ![1024]⟩
abbrev S512x512 : Shape := ⟨2, ![512, 512]⟩
abbrev S512 : Shape := ⟨1, ![512]⟩
abbrev S1x1024 : Shape := ⟨2, ![1, 1024]⟩
abbrev S1x512 : Shape := ⟨2, ![1, 512]⟩
abbrev S512x1024 : Shape := ⟨2, ![512, 1024]⟩
abbrev S512x1 : Shape := ⟨2, ![512, 1]⟩

abbrev nBuf : Space → Nat
  | .hbm => 19
  | .vmem => 16
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S1024x512, .f32⟩
  | .hbm, ⟨3, _⟩ => ⟨S1024, .f32⟩
  | .hbm, ⟨4, _⟩ => ⟨S1024x512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S1024, .f32⟩
  | .hbm, ⟨9, _⟩ => ⟨S1024, .f32⟩
  | .hbm, ⟨10, _⟩ => ⟨S512, .f32⟩
  | .hbm, ⟨11, _⟩ => ⟨S512, .f32⟩
  | .hbm, ⟨12, _⟩ => ⟨S1x1024, .f32⟩
  | .hbm, ⟨13, _⟩ => ⟨S1x512, .f32⟩
  | .hbm, ⟨14, _⟩ => ⟨S1x1024, .f32⟩
  | .hbm, ⟨15, _⟩ => ⟨S1x1024, .f32⟩
  | .hbm, ⟨16, _⟩ => ⟨S1x512, .f32⟩
  | .hbm, ⟨17, _⟩ => ⟨S1x512, .f32⟩
  | .hbm, ⟨18, _⟩ => ⟨S65536x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1024x512, .f32⟩
  | .local _ .vmem, ⟨5, _⟩ => ⟨S1x1024, .f32⟩
  | .local _ .vmem, ⟨6, _⟩ => ⟨S1024x512, .f32⟩
  | .local _ .vmem, ⟨7, _⟩ => ⟨S512x512, .f32⟩
  | .local _ .vmem, ⟨8, _⟩ => ⟨S1x512, .f32⟩
  | .local _ .vmem, ⟨9, _⟩ => ⟨S512x512, .f32⟩
  | .local _ .vmem, ⟨10, _⟩ => ⟨S1x1024, .f32⟩
  | .local _ .vmem, ⟨11, _⟩ => ⟨S1x1024, .f32⟩
  | .local _ .vmem, ⟨12, _⟩ => ⟨S1x512, .f32⟩
  | .local _ .vmem, ⟨13, _⟩ => ⟨S1x512, .f32⟩
  | .local _ .vmem, ⟨14, _⟩ => ⟨S512x512, .f32⟩
  | .local _ .vmem, ⟨15, _⟩ => ⟨S512x512, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  shapeCasts_S1024_S1x1024 : S1024.ShapeCasts S1x1024
  shapeCasts_S512_S1x512 : S512.ShapeCasts S1x512
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  transposes_S1024x512_p1_0_S512x1024 : S1024x512.Transposes [1, 0] S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  reduces_S512x1024_S512 : S512x1024.Reduces [1] S512
  shapeCasts_S512_S512x1 : S512.ShapeCasts S512x1
  broadcasts_S512x1_S512x1024 : S512x1.Broadcasts S512x1024
  slices_S512x1024_o0_0_S512x512 : S512x1024.Slices ![0, 0] S512x512
  slices_S512x1024_o0_512_S512x512 : S512x1024.Slices ![0, 512] S512x512
  transposes_S512x512_p1_0_S512x512 : S512x512.Transposes [1, 0] S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  reduces_S512x512_S512 : S512x512.Reduces [1] S512
  broadcasts_S512x1_S512x512 : S512x1.Broadcasts S512x512
  dot_S512x512_S512x1024_S512x1024_1_0_0_1_n_n_wf : DotDims.WF S512x512 S512x1024 S512x1024 [1] [0] [0] [1] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S65536x512.size a
  hwx0_0 : ∀ i : grid0.Coords, EltTy.bits .f32 = 32 ∨ (Rect.block (s := S65536x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S65536x512.size a
  hwx0_1 : ∀ i : grid0.Coords, EltTy.bits .f32 = 32 ∨ (Rect.block (s := S65536x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .f32 = 32 ∨ (Rect.block (s := S1024x512) S1024x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S1024x512.size a
  hwx0_4 : ∀ i : grid0.Coords, EltTy.bits .f32 = 32 ∨ (Rect.block (s := S1024x512) S1024x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .f32 = 32 ∨ (Rect.block (s := S512x512) S512x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x512.size a
  hwx0_11 : ∀ i : grid0.Coords, EltTy.bits .f32 = 32 ∨ (Rect.block (s := S1x512) S1x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x512.size a ≤ S65536x512.size a
  hwx0_12 : ∀ i : grid0.Coords, EltTy.bits .f32 = 32 ∨ (Rect.block (s := S65536x512) S512x512.size (cc0_transform_12 i) (hinb0_12 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S1x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v6) S512x512.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S65536x512 : Shape := ⟨2, ![65536, 512]⟩
abbrev S1024x512 : Shape := ⟨2, ![1024, 512]⟩
abbrev S1024 : Shape := ⟨1, ![1024]⟩
abbrev S512x512 : Shape := ⟨2, ![512, 512]⟩
abbrev S512 : Shape := ⟨1, ![512]⟩
abbrev S512x1024 : Shape := ⟨2, ![512, 1024]⟩
abbrev S65536x1024 : Shape := ⟨2, ![65536, 1024]⟩
abbrev S1x1024 : Shape := ⟨2, ![1, 1024]⟩
abbrev S_ : Shape := ⟨0, ![]⟩
abbrev S65536 : Shape := ⟨1, ![65536]⟩
abbrev S65536x1 : Shape := ⟨2, ![65536, 1]⟩
abbrev S1x512 : Shape := ⟨2, ![1, 512]⟩

abbrev nBuf : Space → Nat
  | .hbm => 104
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S1024x512, .f32⟩
  | .hbm, ⟨3, _⟩ => ⟨S1024, .f32⟩
  | .hbm, ⟨4, _⟩ => ⟨S1024x512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S1024, .f32⟩
  | .hbm, ⟨9, _⟩ => ⟨S1024, .f32⟩
  | .hbm, ⟨10, _⟩ => ⟨S512, .f32⟩
  | .hbm, ⟨11, _⟩ => ⟨S512, .f32⟩
  | .hbm, ⟨12, _⟩ => ⟨S512x1024, .f32⟩
  | .hbm, ⟨13, _⟩ => ⟨S65536x1024, .f32⟩
  | .hbm, ⟨14, _⟩ => ⟨S1x1024, .f32⟩
  | .hbm, ⟨15, _⟩ => ⟨S65536x1024, .f32⟩
  | .hbm, ⟨16, _⟩ => ⟨S65536x1024, .f32⟩
  | .hbm, ⟨17, _⟩ => ⟨S512x1024, .f32⟩
  | .hbm, ⟨18, _⟩ => ⟨S65536x1024, .f32⟩
  | .hbm, ⟨19, _⟩ => ⟨S65536x1024, .f32⟩
  | .hbm, ⟨20, _⟩ => ⟨S_, .f32⟩
  | .hbm, ⟨21, _⟩ => ⟨S65536, .f32⟩
  | .hbm, ⟨22, _⟩ => ⟨S65536x1, .f32⟩
  | .hbm, ⟨23, _⟩ => ⟨S_, .f32⟩
  | .hbm, ⟨24, _⟩ => ⟨S65536x1, .f32⟩
  | .hbm, ⟨25, _⟩ => ⟨S65536x1, .f32⟩
  | .hbm, ⟨26, _⟩ => ⟨S65536x1024, .f32⟩
  | .hbm, ⟨27, _⟩ => ⟨S65536x1024, .f32⟩
  | .hbm, ⟨28, _⟩ => ⟨S65536x1024, .f32⟩
  | .hbm, ⟨29, _⟩ => ⟨S_, .f32⟩
  | .hbm, ⟨30, _⟩ => ⟨S65536, .f32⟩
  | .hbm, ⟨31, _⟩ => ⟨S65536x1, .f32⟩
  | .hbm, ⟨32, _⟩ => ⟨S_, .f32⟩
  | .hbm, ⟨33, _⟩ => ⟨S65536x1, .f32⟩
  | .hbm, ⟨34, _⟩ => ⟨S65536x1, .f32⟩
  | .hbm, ⟨35, _⟩ => ⟨S65536x1024, .f32⟩
  | .hbm, ⟨36, _⟩ => ⟨S65536x1024, .f32⟩
  | .hbm, ⟨37, _⟩ => ⟨S_, .f32⟩
  | .hbm, ⟨38, _⟩ => ⟨S65536x1, .f32⟩
  | .hbm, ⟨39, _⟩ => ⟨S65536x1, .f32⟩
  | .hbm, ⟨40, _⟩ => ⟨S65536x1, .f32⟩
  | .hbm, ⟨41, _⟩ => ⟨S65536x1024, .f32⟩
  | .hbm, ⟨42, _⟩ => ⟨S65536x1024, .f32⟩
  | .hbm, ⟨43, _⟩ => ⟨S1x1024, .f32⟩
  | .hbm, ⟨44, _⟩ => ⟨S65536x1024, .f32⟩
  | .hbm, ⟨45, _⟩ => ⟨S65536x1024, .f32⟩
  | .hbm, ⟨46, _⟩ => ⟨S1x1024, .f32⟩
  | .hbm, ⟨47, _⟩ => ⟨S65536x1024, .f32⟩
  | .hbm, ⟨48, _⟩ => ⟨S65536x1024, .f32⟩
  | .hbm, ⟨49, _⟩ => ⟨S65536x1024, .f32⟩
  | .hbm, ⟨50, _⟩ => ⟨S65536x1024, .f32⟩
  | .hbm, ⟨51, _⟩ => ⟨S_, .f32⟩
  | .hbm, ⟨52, _⟩ => ⟨S65536x1024, .f32⟩
  | .hbm, ⟨53, _⟩ => ⟨S65536x1024, .f32⟩
  | .hbm, ⟨54, _⟩ => ⟨S_, .f32⟩
  | .hbm, ⟨55, _⟩ => ⟨S65536x1024, .f32⟩
  | .hbm, ⟨56, _⟩ => ⟨S65536x1024, .f32⟩
  | .hbm, ⟨57, _⟩ => ⟨S65536x512, .f32⟩
  | .hbm, ⟨58, _⟩ => ⟨S65536x512, .f32⟩
  | .hbm, ⟨59, _⟩ => ⟨S512x512, .f32⟩
  | .hbm, ⟨60, _⟩ => ⟨S65536x512, .f32⟩
  | .hbm, ⟨61, _⟩ => ⟨S1x512, .f32⟩
  | .hbm, ⟨62, _⟩ => ⟨S65536x512, .f32⟩
  | .hbm, ⟨63, _⟩ => ⟨S65536x512, .f32⟩
  | .hbm, ⟨64, _⟩ => ⟨S512x512, .f32⟩
  | .hbm, ⟨65, _⟩ => ⟨S65536x512, .f32⟩
  | .hbm, ⟨66, _⟩ => ⟨S65536x512, .f32⟩
  | .hbm, ⟨67, _⟩ => ⟨S65536x512, .f32⟩
  | .hbm, ⟨68, _⟩ => ⟨S_, .f32⟩
  | .hbm, ⟨69, _⟩ => ⟨S65536, .f32⟩
  | .hbm, ⟨70, _⟩ => ⟨S65536x1, .f32⟩
  | .hbm, ⟨71, _⟩ => ⟨S_, .f32⟩
  | .hbm, ⟨72, _⟩ => ⟨S65536x1, .f32⟩
  | .hbm, ⟨73, _⟩ => ⟨S65536x1, .f32⟩
  | .hbm, ⟨74, _⟩ => ⟨S65536x512, .f32⟩
  | .hbm, ⟨75, _⟩ => ⟨S65536x512, .f32⟩
  | .hbm, ⟨76, _⟩ => ⟨S65536x512, .f32⟩
  | .hbm, ⟨77, _⟩ => ⟨S_, .f32⟩
  | .hbm, ⟨78, _⟩ => ⟨S65536, .f32⟩
  | .hbm, ⟨79, _⟩ => ⟨S65536x1, .f32⟩
  | .hbm, ⟨80, _⟩ => ⟨S_, .f32⟩
  | .hbm, ⟨81, _⟩ => ⟨S65536x1, .f32⟩
  | .hbm, ⟨82, _⟩ => ⟨S65536x1, .f32⟩
  | .hbm, ⟨83, _⟩ => ⟨S65536x512, .f32⟩
  | .hbm, ⟨84, _⟩ => ⟨S65536x512, .f32⟩
  | .hbm, ⟨85, _⟩ => ⟨S_, .f32⟩
  | .hbm, ⟨86, _⟩ => ⟨S65536x1, .f32⟩
  | .hbm, ⟨87, _⟩ => ⟨S65536x1, .f32⟩
  | .hbm, ⟨88, _⟩ => ⟨S65536x1, .f32⟩
  | .hbm, ⟨89, _⟩ => ⟨S65536x512, .f32⟩
  | .hbm, ⟨90, _⟩ => ⟨S65536x512, .f32⟩
  | .hbm, ⟨91, _⟩ => ⟨S1x512, .f32⟩
  | .hbm, ⟨92, _⟩ => ⟨S65536x512, .f32⟩
  | .hbm, ⟨93, _⟩ => ⟨S65536x512, .f32⟩
  | .hbm, ⟨94, _⟩ => ⟨S1x512, .f32⟩
  | .hbm, ⟨95, _⟩ => ⟨S65536x512, .f32⟩
  | .hbm, ⟨96, _⟩ => ⟨S65536x512, .f32⟩
  | .hbm, ⟨97, _⟩ => ⟨S65536x512, .f32⟩
  | .hbm, ⟨98, _⟩ => ⟨S_, .f32⟩
  | .hbm, ⟨99, _⟩ => ⟨S65536x512, .f32⟩
  | .hbm, ⟨100, _⟩ => ⟨S65536x512, .f32⟩
  | .hbm, ⟨101, _⟩ => ⟨S65536x512, .f32⟩
  | .hbm, ⟨102, _⟩ => ⟨S65536x512, .f32⟩
  | .hbm, ⟨103, _⟩ => ⟨S65536x512, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_4 : Ref sig .tc := ⟨.hbm, 51, rfl⟩
abbrev main_v34 : Ref sig .tc := ⟨.hbm, 52, rfl⟩
abbrev main_v35 : Ref sig .tc := ⟨.hbm, 53, rfl⟩
abbrev main_cst_5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_6 : Ref sig .tc := ⟨.hbm, 68, rfl⟩
abbrev main_v49 : Ref sig .tc := ⟨.hbm, 69, rfl⟩
abbrev main_v50 : Ref sig .tc := ⟨.hbm, 70, rfl⟩
abbrev main_cst_7 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_8 : Ref sig .tc := ⟨.hbm, 77, rfl⟩
abbrev main_v56 : Ref sig .tc := ⟨.hbm, 78, rfl⟩
abbrev main_v57 : Ref sig .tc := ⟨.hbm, 79, rfl⟩
abbrev main_cst_9 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_10 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_11 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩

abbrev nD : Nat := 1
abbrev τ : Topo := Topo.v7x

variable {F : FTy → Type} [FloatOps F]

class Facts₀ : Prop where
  transposes_S1024x512_S512x1024_1_0 : S1024x512.Transposes [1, 0] S512x1024
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  reducesTo_S65536x1024_S65536_d1 : S65536x1024.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x1024_0_1 : S65536x1.BroadcastsInDim S65536x1024 (![0, 1] : Fin 2 → Fin S65536x1024.rank)
  bcast_S_S65536x1024 : S_.BroadcastsInDim S65536x1024 (![] : Fin 0 → Fin S65536x1024.rank)
  slices_S65536x1024_S65536x512_0_0 : S65536x1024.Slices ![0, 0] S65536x512
  slices_S65536x1024_S65536x512_0_512 : S65536x1024.Slices ![0, 512] S65536x512
  transposes_S512x512_S512x512_1_0 : S512x512.Transposes [1, 0] S512x512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  reducesTo_S65536x512_S65536_d1 : S65536x512.ReducesTo [1] S65536
  bcast_S65536x1_S65536x512_0_1 : S65536x1.BroadcastsInDim S65536x512 (![0, 1] : Fin 2 → Fin S65536x512.rank)
  bcast_S_S65536x512 : S_.BroadcastsInDim S65536x512 (![] : Fin 0 → Fin S65536x512.rank)
  dot_S65536x512_S512x1024_S65536x1024_1_0_0_1_n_n_wf : DotDims.WF S65536x512 S512x1024 S65536x1024 [1] [0] [0] [1] [] []
  dot_S65536x512_S512x512_S65536x512_1_0_0_1_n_n_wf : DotDims.WF S65536x512 S512x512 S65536x512 [1] [0] [0] [1] [] []

variable [Facts₀]

def dot_S65536x512_S512x1024_S65536x1024_1_0_0_1_n_n : DotDims S65536x512 S512x1024 S65536x1024 where
  lhsContracting := [1]
  rhsContracting := [0]
  lhsNonContracting := [0]
  rhsNonContracting := [1]
  lhsBatch := []
  rhsBatch := []
  wf := dot_S65536x512_S512x1024_S65536x1024_1_0_0_1_n_n_wf
def dot_S65536x512_S512x512_S65536x512_1_0_0_1_n_n : DotDims S65536x512 S512x512 S65536x512 where
  lhsContracting := [1]
  rhsContracting := [0]
  lhsNonContracting := [0]
  rhsNonContracting := [1]
  lhsBatch := []
  rhsBatch := []
  wf := dot_S65536x512_S512x512_S65536x512_1_0_0_1_n_n_wf

class Facts : Prop extends Facts₀ where

variable [Facts]
-- ==== Proof.GruCell.lean ====
/-
  The layer-normalised GRU cell as ONE function of the argument arrays, over the extended reals.

  Every output row depends on one row `x` of the input batch, the matching row `h` of the previous hidden
  state, and the weights.  For such a pair of rows:

    gate pre-activation   a n = (Σ k, x k · Wg n k) + (Σ k, h k · Ug n k) + bg n            (n < 1024)
    its layer norm        â n = (a n − mean a) · rsqrt (var a + ε) · γg n + βg n,  mean and var over the 1024 columns
    the two gates         g n = logistic (â n);   reset r j = g j,  update z j = g (512 + j)     (j < 512)
    candidate pre-act.    c j = ((Σ k, x k · Wc j k) + bc j) + r j · (Σ k, h k · Uc j k)
    its layer norm        ĉ j = (c j − mean c) · rsqrt (var c + ε) · γc j + βc j,  mean and var over the 512 columns
    new hidden state      h' j = (1 − z j) · h j + z j · tanh (ĉ j)

  Means are quotients by the column count (1024, 512), the variance is the mean of the squared deviations, and the
  four literals (1024, 512, ε = f32(1e-5), 1) are kept as the binary words both programs print.  Sums, products and
  differences are the extended reals' own; `Ideal.div`, `Ideal.rsqrt`, `Ideal.logistic`, `Ideal.tanh` are the ideal
  readings of the float operations.  Nothing here needs the inputs to be finite.
-/
import Idealize.ShloMosaic.PureOps.Ideal
import Idealize.ShloMosaic.Lib.ValueIdx

noncomputable section

namespace Cert.Gru

open Idealize.ShloMosaic Idealize.ShloMosaic.ValueIdx

/-- The gate width 1024, as the f32 word both programs divide by. -/
def cGate : EReal := Ideal.ofBits .f32 0x44800000#32
/-- The hidden width 512, likewise. -/
def cHid : EReal := Ideal.ofBits .f32 0x44000000#32
/-- The layer norm's ε, the f32 nearest 1e-5. -/
def cEps : EReal := Ideal.ofBits .f32 0x3727C5AC#32
/-- The f32 word of 1. -/
def cOne : EReal := Ideal.ofBits .f32 0x3F800000#32

/-- The cell's weights: gate side (1024 columns) and candidate side (512 columns). -/
structure Weights where
  Wg : Fin 1024 → Fin 512 → EReal
  Ug : Fin 1024 → Fin 512 → EReal
  bg : Fin 1024 → EReal
  γg : Fin 1024 → EReal
  βg : Fin 1024 → EReal
  Wc : Fin 512 → Fin 512 → EReal
  Uc : Fin 512 → Fin 512 → EReal
  bc : Fin 512 → EReal
  γc : Fin 512 → EReal
  βc : Fin 512 → EReal

/-- Column `j` of the reset half of the gates. -/
def lo (j : Fin 512) : Fin 1024 := ⟨j.val, by have := j.isLt; omega⟩
/-- Column `j` of the update half of the gates. -/
def hi (j : Fin 512) : Fin 1024 := ⟨512 + j.val, by have := j.isLt; omega⟩

section Row
variable (P : Weights) (x h : Fin 512 → EReal)

/-- Gate pre-activation: both matrix products first, then the bias. -/
def gateLin (n : Fin 1024) : EReal := ((∑ k : Fin 512, x k * P.Wg n k) + (∑ k : Fin 512, h k * P.Ug n k)) + P.bg n
def gateMean : EReal := Ideal.div (∑ n : Fin 1024, gateLin P x h n) cGate
def gateDev (n : Fin 1024) : EReal := gateLin P x h n - gateMean P x h
def gateVar : EReal := Ideal.div (∑ n : Fin 1024, gateDev P x h n * gateDev P x h n) cGate
def gateScale : EReal := Ideal.rsqrt (gateVar P x h + cEps)
def gate (n : Fin 1024) : EReal := Ideal.logistic (gateDev P x h n * gateScale P x h * P.γg n + P.βg n)

/-- Candidate pre-activation: the reset gate scales the hidden-state product only. -/
def candLin (j : Fin 512) : EReal :=
  ((∑ k : Fin 512, x k * P.Wc j k) + P.bc j) + gate P x h (lo j) * (∑ k : Fin 512, h k * P.Uc j k)
def candMean : EReal := Ideal.div (∑ j : Fin 512, candLin P x h j) cHid
def candDev (j : Fin 512) : EReal := candLin P x h j - candMean P x h
def candVar : EReal := Ideal.div (∑ j : Fin 512, candDev P x h j * candDev P x h j) cHid
def candScale : EReal := Ideal.rsqrt (candVar P x h + cEps)
def cand (j : Fin 512) : EReal := Ideal.tanh (candDev P x h j * candScale P x h * P.γc j + P.βc j)

/-- The new hidden state of one row. -/
def next (j : Fin 512) : EReal := (cOne - gate P x h (hi j)) * h j + gate P x h (hi j) * cand P x h j

/-- The same gate pre-activation with the bias added between the two products: equal, because addition of
    extended reals is commutative and associative (no finiteness needed). -/
theorem gateLin_bias_between (n : Fin 1024) :
    ((∑ k : Fin 512, x k * P.Wg n k) + P.bg n) + (∑ k : Fin 512, h k * P.Ug n k) = gateLin P x h n := by
  unfold gateLin
  exact add_right_comm _ _ _

end Row

/-- The weights read off the six argument arrays (matrices as given, `[out, in]`; vectors rank 1). -/
def weightsOf (wg ug : (⟨2, ![1024, 512]⟩ : Shape).Idx → EReal) (bg γg βg : (⟨1, ![1024]⟩ : Shape).Idx → EReal)
    (wc uc : (⟨2, ![512, 512]⟩ : Shape).Idx → EReal) (bc γc βc : (⟨1, ![512]⟩ : Shape).Idx → EReal) : Weights where
  Wg := fun n k => wg (ix2 n k)
  Ug := fun n k => ug (ix2 n k)
  bg := fun n => bg (ix1 n)
  γg := fun n => γg (ix1 n)
  βg := fun n => βg (ix1 n)
  Wc := fun j k => wc (ix2 j k)
  Uc := fun j k => uc (ix2 j k)
  bc := fun j => bc (ix1 j)
  γc := fun j => γc (ix1 j)
  βc := fun j => βc (ix1 j)

/-- Row `b` of a `[B, 512]` array. -/
def row {B : Nat} (a : (⟨2, ![B, 512]⟩ : Shape).Idx → EReal) (b : Fin B) : Fin 512 → EReal := fun k => a (ix2 b k)

/-- THE RESULT: the whole `[65536, 512]` output as one function of the twelve arguments, index by index. -/
def result (xs hs : (⟨2, ![65536, 512]⟩ : Shape).Idx → EReal) (P : Weights) : (⟨2, ![65536, 512]⟩ : Shape).Idx → EReal :=
  fun i => next P (row xs (i 0)) (row hs (i 0)) (i 1)

theorem result_ix2 (xs hs : (⟨2, ![65536, 512]⟩ : Shape).Idx → EReal) (P : Weights) (b : Fin 65536) (j : Fin 512) :
    result xs hs P (ix2 b j) = next P (row xs b) (row hs b) j := rfl

end Cert.Gru

end
-- ==== Proof.KernelRow.lean ====
/-
  The kernel body's values read at an index, at the ideal instance.

  The body works on a block of 512 batch rows.  Row `p` of every intermediate value depends only on row `p` of
  the two activation blocks and on the weights, and is the row function of `Cert.Gru` (GruCell.lean) at those rows:
  this module proves that, one intermediate value at a time, in the order the body computes them.  The changes of
  float format (to bf16 before the matrix products) are the identity here, a matrix product into a zero accumulator
  is the plain sum over the contracted axis, and a lane reduction is the sum over the row.
-/
import proofs.«179115_j41712722378993_1_alg».proof.Proof.Gen.KernelIdeal.Skeleton
import proofs.«179115_j41712722378993_1_alg».proof.Proof.GruCell
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RowValue

open Cert.KernelIdeal Cert.KernelIdeal.Gen Idealize.ShloMosaic Idealize.ShloMosaic.ValueIdx

/-! ## Layout operations of the body, read at explicit coordinates -/

/-- A `[512]` vector cast to a `[512, 1]` column reads, at `(p, u)`, the vector at `p`. -/
theorem col_of_vec {α : Type} (v : S512.Idx → α) (p : Fin 512) (u : Fin 1) :
    shapeCast S512x1 v shapeCasts_S512_S512x1 (ix2 p u) = v (ix1 p) :=
  shapeCast_apply v shapeCasts_S512_S512x1 _ _ (by
    have hu : u.val = 0 := by omega
    rw [Shape.rowMajor_val_two, Shape.rowMajor_val_one]
    show p.val = p.val * 1 + u.val
    omega)

/-- A `[512, 1]` column broadcast along 1024 lanes reads, at `(p, n)`, the column at `p`. -/
theorem bcast_col_1024 {α : Type} (v : S512x1.Idx → α) (p : Fin 512) (n : Fin 1024) :
    broadcastTo S512x1024 v broadcasts_S512x1_S512x1024 (ix2 p n) = v (ix2 p (0 : Fin 1)) := by
  refine broadcastTo_apply v broadcasts_S512x1_S512x1024 (ix2 p n) (ix2 p (0 : Fin 1)) fun ax => ?_
  match ax with
  | ⟨0, _⟩ => rfl
  | ⟨1, _⟩ => rfl

/-- A `[512, 1]` column broadcast along 512 lanes reads, at `(p, j)`, the column at `p`. -/
theorem bcast_col_512 {α : Type} (v : S512x1.Idx → α) (p : Fin 512) (j : Fin 512) :
    broadcastTo S512x512 v broadcasts_S512x1_S512x512 (ix2 p j) = v (ix2 p (0 : Fin 1)) := by
  refine broadcastTo_apply v broadcasts_S512x1_S512x512 (ix2 p j) (ix2 p (0 : Fin 1)) fun ax => ?_
  match ax with
  | ⟨0, _⟩ => rfl
  | ⟨1, _⟩ => rfl

/-- The transposed gate matrix at `(k, n)` is the matrix at `(n, k)`. -/
theorem transpose_gate {α : Type} (M : S1024x512.Idx → α) (k : Fin 512) (n : Fin 1024) :
    transpose S512x1024 [1, 0] M transposes_S1024x512_p1_0_S512x1024 (ix2 k n) = M (ix2 n k) :=
  transpose_ix2_apply M transposes_S1024x512_p1_0_S512x1024 k n

/-- The transposed candidate matrix at `(k, j)` is the matrix at `(j, k)`. -/
theorem transpose_cand {α : Type} (M : S512x512.Idx → α) (k : Fin 512) (j : Fin 512) :
    transpose S512x512 [1, 0] M transposes_S512x512_p1_0_S512x512 (ix2 k j) = M (ix2 j k) :=
  transpose_ix2_apply M transposes_S512x512_p1_0_S512x512 k j

/-! ## The pointwise transcendental operations at an index -/

theorem rsqrt_apply {s : Shape} {φ : FTy} (a : FVec Ideal s φ) (i : s.Idx) : rsqrt a i = Ideal.rsqrt (a i) := rfl
theorem logistic_apply {s : Shape} {φ : FTy} (a : FVec Ideal s φ) (i : s.Idx) : logistic a i = Ideal.logistic (a i) := rfl
theorem tanh_apply {s : Shape} {φ : FTy} (a : FVec Ideal s φ) (i : s.Idx) : tanh a i = Ideal.tanh (a i) := rfl

/-! ## The matrix products, read at an index -/

theorem lhs_gate_0 (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem lhs_gate_1 (i : S512x1024.Idx) (q : dot_S512x512_S512x1024_S512x1024_1_0_0_1_n_n.contr.Idx) :
    (dot_S512x512_S512x1024_S512x1024_1_0_0_1_n_n.lhsIdx i q 1).val = (q ⟨0, by decide⟩).val :=
  dot_S512x512_S512x1024_S512x1024_1_0_0_1_n_n.lhsIdx_val_of_single rfl i q
theorem rhs_gate_0 (i : S512x1024.Idx) (q : dot_S512x512_S512x1024_S512x1024_1_0_0_1_n_n.contr.Idx) :
    (dot_S512x512_S512x1024_S512x1024_1_0_0_1_n_n.rhsIdx i q 0).val = (q ⟨0, by decide⟩).val :=
  dot_S512x512_S512x1024_S512x1024_1_0_0_1_n_n.rhsIdx_val_of_single rfl i q
theorem rhs_gate_1 (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

/-- The gate product into a zero accumulator, at `(p, n)`: row `p` of the left factor against column `n` of the right. -/
theorem matmul_gate_apply (A : FVec Ideal S512x512 .bf16) (B : FVec Ideal S512x1024 .bf16) (p : Fin 512) (n : Fin 1024) :
    matmul dot_S512x512_S512x1024_S512x1024_1_0_0_1_n_n none A B (constant S512x1024 .f32 0x00000000#32) (ix2 p n)
      = ∑ k : Fin 512, A (ix2 p k) * B (ix2 k n) := by
  simp only [matmul]
  rw [Ideal.matmul_constant_zero_apply, ← Equiv.sum_comp (ValueIdx.contrEquiv1 dot_S512x512_S512x1024_S512x1024_1_0_0_1_n_n 512 rfl rfl).symm]
  refine Finset.sum_congr rfl fun k _ => ?_
  have hk := ValueIdx.contrEquiv1_symm_val dot_S512x512_S512x1024_S512x1024_1_0_0_1_n_n 512 rfl rfl k
  have el : dot_S512x512_S512x1024_S512x1024_1_0_0_1_n_n.lhsIdx (ix2 p n) ((ValueIdx.contrEquiv1 dot_S512x512_S512x1024_S512x1024_1_0_0_1_n_n 512 rfl rfl).symm k) = ix2 p k := funext fun a => Fin.ext (by
    match a with
    | ⟨0, _⟩ => exact lhs_gate_0 _ _
    | ⟨1, _⟩ => exact (lhs_gate_1 _ _).trans hk)
  have er : dot_S512x512_S512x1024_S512x1024_1_0_0_1_n_n.rhsIdx (ix2 p n) ((ValueIdx.contrEquiv1 dot_S512x512_S512x1024_S512x1024_1_0_0_1_n_n 512 rfl rfl).symm k) = ix2 k n := funext fun a => Fin.ext (by
    match a with
    | ⟨0, _⟩ => exact (rhs_gate_0 _ _).trans hk
    | ⟨1, _⟩ => exact rhs_gate_1 _ _)
  rw [el, er]

theorem lhs_cand_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhs_cand_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem rhs_cand_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhs_cand_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The cand product into a zero accumulator, at `(p, n)`: row `p` of the left factor against column `n` of the right. -/
theorem matmul_cand_apply (A : FVec Ideal S512x512 .bf16) (B : FVec Ideal S512x512 .bf16) (p : Fin 512) (n : Fin 512) :
    matmul dot_S512x512_S512x512_S512x512_1_0_0_1_n_n none A B (constant S512x512 .f32 0x00000000#32) (ix2 p n)
      = ∑ k : Fin 512, A (ix2 p k) * B (ix2 k n) := by
  simp only [matmul]
  rw [Ideal.matmul_constant_zero_apply, ← Equiv.sum_comp (ValueIdx.contrEquiv1 dot_S512x512_S512x512_S512x512_1_0_0_1_n_n 512 rfl rfl).symm]
  refine Finset.sum_congr rfl fun k _ => ?_
  have hk := ValueIdx.contrEquiv1_symm_val dot_S512x512_S512x512_S512x512_1_0_0_1_n_n 512 rfl rfl k
  have el : dot_S512x512_S512x512_S512x512_1_0_0_1_n_n.lhsIdx (ix2 p n) ((ValueIdx.contrEquiv1 dot_S512x512_S512x512_S512x512_1_0_0_1_n_n 512 rfl rfl).symm k) = ix2 p k := funext fun a => Fin.ext (by
    match a with
    | ⟨0, _⟩ => exact lhs_cand_0 _ _
    | ⟨1, _⟩ => exact (lhs_cand_1 _ _).trans hk)
  have er : dot_S512x512_S512x512_S512x512_1_0_0_1_n_n.rhsIdx (ix2 p n) ((ValueIdx.contrEquiv1 dot_S512x512_S512x512_S512x512_1_0_0_1_n_n 512 rfl rfl).symm k) = ix2 k n := funext fun a => Fin.ext (by
    match a with
    | ⟨0, _⟩ => exact (rhs_cand_0 _ _).trans hk
    | ⟨1, _⟩ => exact rhs_cand_1 _ _)
  rw [el, er]

/-! ## Lane sums -/

/-- The sum over the 1024 lanes of row `p`. -/
theorem rowsum_1024 (v : FVec Ideal S512x1024 .f32) (p : Fin 512) :
    multiReduction .add [1] S512 v 0x00000000#32 reduces_S512x1024_S512 (.inl rfl) rfl (ix1 p)
      = ∑ n : Fin 1024, v (ix2 p n) := by
  refine (Ideal.multiReduction_add_single v 0x00000000#32 reduces_S512x1024_S512 (.inl rfl) rfl (ix1 p)).trans ?_
  refine Finset.sum_congr rfl fun k _ => congrArg v (funext fun a => Fin.ext ?_)
  match a with
  | ⟨0, _⟩ => rfl
  | ⟨1, _⟩ => rfl

/-- The sum over the 512 lanes of row `p`. -/
theorem rowsum_512 (v : FVec Ideal S512x512 .f32) (p : Fin 512) :
    multiReduction .add [1] S512 v 0x00000000#32 reduces_S512x512_S512 (.inl rfl) rfl (ix1 p)
      = ∑ j : Fin 512, v (ix2 p j) := by
  refine (Ideal.multiReduction_add_single v 0x00000000#32 reduces_S512x512_S512 (.inl rfl) rfl (ix1 p)).trans ?_
  refine Finset.sum_congr rfl fun k _ => congrArg v (funext fun a => Fin.ext ?_)
  match a with
  | ⟨0, _⟩ => rfl
  | ⟨1, _⟩ => rfl

/-! ## The body's loads, and the weights they hold

  `P0`, `P1` are the blocks of the two activations (512 rows each); `P2`, `P3` the gate matrices, `P4` the gate
  bias, `P5`, `P6` the gate layer norm's scale and shift (rows of shape `[1, 1024]`); `P7`, `P8` the candidate
  matrices, `P9` its bias, `P10`, `P11` its layer norm's scale and shift (`[1, 512]`). -/

section Body
variable (P0 P1 : Vec Ideal S512x512 .f32) (P2 P3 : Vec Ideal S1024x512 .f32) (P4 P5 P6 : Vec Ideal S1x1024 .f32)
  (P7 P8 : Vec Ideal S512x512 .f32) (P9 P10 P11 : Vec Ideal S1x512 .f32)

/-- The weights as the body's loads hold them. -/
def blockWeights : Cert.Gru.Weights where
  Wg := fun n k => P2 (ix2 n k)
  Ug := fun n k => P3 (ix2 n k)
  bg := fun n => P4 (ix2 (0 : Fin 1) n)
  γg := fun n => P5 (ix2 (0 : Fin 1) n)
  βg := fun n => P6 (ix2 (0 : Fin 1) n)
  Wc := fun j k => P7 (ix2 j k)
  Uc := fun j k => P8 (ix2 j k)
  bc := fun j => P9 (ix2 (0 : Fin 1) j)
  γc := fun j => P10 (ix2 (0 : Fin 1) j)
  βc := fun j => P11 (ix2 (0 : Fin 1) j)

local notation "W" => blockWeights P2 P3 P4 P5 P6 P7 P8 P9 P10 P11

/-- The gate pre-activation of row `p`, column `n`. -/
theorem gateLin_apply (p : Fin 512) (n : Fin 1024) :
    k0_pay4 (F := Ideal) P0 P1 P2 P3 P4 (ix2 p n)
      = Cert.Gru.gateLin (blockWeights P2 P3 P4 P5 P6 P7 P8 P9 P10 P11) (Cert.Gru.row P0 p) (Cert.Gru.row P1 p) n := by
  unfold k0_pay4 k0_pay2 k0_pay3
  dsimp only
  rw [addf_apply, addf_apply, matmul_gate_apply, matmul_gate_apply, shapeCast_self, broadcastTo_1b_ab_apply]
  unfold Cert.Gru.gateLin
  refine congrArg₂ (· + ·) (congrArg₂ (· + ·) (Finset.sum_congr rfl fun k _ => ?_) (Finset.sum_congr rfl fun k _ => ?_)) rfl
  · exact congrArg (P0 (ix2 p k) * ·) (transpose_gate _ k n)
  · exact congrArg (P1 (ix2 p k) * ·) (transpose_gate _ k n)

/-- The mean of row `p`'s gate pre-activations (a `[512, 1]` column). -/
theorem gateMean_apply (p : Fin 512) (u : Fin 1) :
    k0_pay7 (F := Ideal) P0 P1 P2 P3 P4 (ix2 p u)
      = Cert.Gru.gateMean (blockWeights P2 P3 P4 P5 P6 P7 P8 P9 P10 P11) (Cert.Gru.row P0 p) (Cert.Gru.row P1 p) := by
  unfold k0_pay7
  dsimp only
  rw [divf_apply, col_of_vec, rowsum_1024]
  unfold Cert.Gru.gateMean
  refine congrArg₂ Ideal.div (Finset.sum_congr rfl fun n _ => ?_) rfl
  exact gateLin_apply P0 P1 P2 P3 P4 P5 P6 P7 P8 P9 P10 P11 p n

/-- Row `p`'s gate pre-activation less its mean. -/
theorem gateDev_apply (p : Fin 512) (n : Fin 1024) :
    k0_pay8 (F := Ideal) P0 P1 P2 P3 P4 (ix2 p n)
      = Cert.Gru.gateDev (blockWeights P2 P3 P4 P5 P6 P7 P8 P9 P10 P11) (Cert.Gru.row P0 p) (Cert.Gru.row P1 p) n := by
  unfold k0_pay8
  rw [subf_apply, bcast_col_1024, gateLin_apply P0 P1 P2 P3 P4 P5 P6 P7 P8 P9 P10 P11, gateMean_apply P0 P1 P2 P3 P4 P5 P6 P7 P8 P9 P10 P11]
  rfl

/-- The layer norm's scale of row `p` (the reciprocal root of variance plus ε), broadcast along the lanes. -/
theorem gateScale_apply (p : Fin 512) (n : Fin 1024) :
    k0_pay9 (F := Ideal) P0 P1 P2 P3 P4 (ix2 p n)
      = Cert.Gru.gateScale (blockWeights P2 P3 P4 P5 P6 P7 P8 P9 P10 P11) (Cert.Gru.row P0 p) (Cert.Gru.row P1 p) := by
  unfold k0_pay9
  dsimp only
  rw [bcast_col_1024, rsqrt_apply, addf_apply, divf_apply, col_of_vec, rowsum_1024]
  unfold Cert.Gru.gateScale Cert.Gru.gateVar
  refine congrArg Ideal.rsqrt (congrArg₂ (· + ·) (congrArg₂ Ideal.div (Finset.sum_congr rfl fun n' _ => ?_) rfl) rfl)
  rw [mulf_apply]
  exact congrArg₂ (· * ·) (gateDev_apply P0 P1 P2 P3 P4 P5 P6 P7 P8 P9 P10 P11 p n') (gateDev_apply P0 P1 P2 P3 P4 P5 P6 P7 P8 P9 P10 P11 p n')

/-- The gates of row `p`: the logistic of the normalised, scaled and shifted pre-activation. -/
theorem gate_apply (p : Fin 512) (n : Fin 1024) :
    (k0_pay10 (F := Ideal) (k0_pay5 P5) (k0_pay6 P6) (k0_pay8 P0 P1 P2 P3 P4) (k0_pay9 P0 P1 P2 P3 P4)) (ix2 p n) = Cert.Gru.gate (blockWeights P2 P3 P4 P5 P6 P7 P8 P9 P10 P11) (Cert.Gru.row P0 p) (Cert.Gru.row P1 p) n := by
  unfold k0_pay10 k0_pay5 k0_pay6
  dsimp only
  rw [logistic_apply, addf_apply, mulf_apply, mulf_apply, broadcastTo_1b_ab_apply, broadcastTo_1b_ab_apply, shapeCast_self, shapeCast_self,
    gateDev_apply P0 P1 P2 P3 P4 P5 P6 P7 P8 P9 P10 P11, gateScale_apply P0 P1 P2 P3 P4 P5 P6 P7 P8 P9 P10 P11]
  rfl

/-- The lower half of the gate columns. -/
theorem slice_lo {α : Type} (v : S512x1024.Idx → α) (p j : Fin 512) :
    extractStridedSlice S512x512 ![0, 0] v slices_S512x1024_o0_0_S512x512 (ix2 p j) = v (ix2 p (Cert.Gru.lo j)) :=
  slice2_axis1_apply 0 v slices_S512x1024_o0_0_S512x512 p j (Cert.Gru.lo j) (Nat.zero_add _).symm

/-- The upper half of the gate columns. -/
theorem slice_hi {α : Type} (v : S512x1024.Idx → α) (p j : Fin 512) :
    extractStridedSlice S512x512 ![0, 512] v slices_S512x1024_o0_512_S512x512 (ix2 p j) = v (ix2 p (Cert.Gru.hi j)) :=
  slice2_axis1_apply 512 v slices_S512x1024_o0_512_S512x512 p j (Cert.Gru.hi j) rfl

/-- The update gate of row `p`, column `j`. -/
theorem update_apply (p j : Fin 512) :
    k0_pay11 (F := Ideal) (k0_pay5 P5) (k0_pay6 P6) (k0_pay8 P0 P1 P2 P3 P4) (k0_pay9 P0 P1 P2 P3 P4) (ix2 p j)
      = Cert.Gru.gate (blockWeights P2 P3 P4 P5 P6 P7 P8 P9 P10 P11) (Cert.Gru.row P0 p) (Cert.Gru.row P1 p) (Cert.Gru.hi j) := by
  unfold k0_pay11
  rw [slice_hi]
  exact gate_apply P0 P1 P2 P3 P4 P5 P6 P7 P8 P9 P10 P11 p (Cert.Gru.hi j)

/-- The candidate pre-activation of row `p`, column `j`: the reset gate scales the hidden-state product only. -/
theorem candLin_apply (p j : Fin 512) :
    k0_pay12 (F := Ideal) (k0_pay2 P0) (k0_pay3 P1) (k0_pay5 P5) (k0_pay6 P6) (k0_pay8 P0 P1 P2 P3 P4) (k0_pay9 P0 P1 P2 P3 P4) P7 P8 P9 (ix2 p j) = Cert.Gru.candLin (blockWeights P2 P3 P4 P5 P6 P7 P8 P9 P10 P11) (Cert.Gru.row P0 p) (Cert.Gru.row P1 p) j := by
  unfold k0_pay12 k0_pay2 k0_pay3
  dsimp only
  rw [addf_apply, addf_apply, mulf_apply, matmul_cand_apply, matmul_cand_apply, shapeCast_self, broadcastTo_1b_ab_apply, slice_lo]
  unfold Cert.Gru.candLin
  refine congrArg₂ (· + ·) (congrArg₂ (· + ·) (Finset.sum_congr rfl fun k _ => ?_) rfl)
    (congrArg₂ (· * ·) (gate_apply P0 P1 P2 P3 P4 P5 P6 P7 P8 P9 P10 P11 p (Cert.Gru.lo j)) (Finset.sum_congr rfl fun k _ => ?_))
  · exact congrArg (P0 (ix2 p k) * ·) (transpose_cand _ k j)
  · exact congrArg (P1 (ix2 p k) * ·) (transpose_cand _ k j)

/-- The mean of row `p`'s candidate pre-activations. -/
theorem candMean_apply (p : Fin 512) (u : Fin 1) :
    k0_pay15 (F := Ideal) (k0_pay2 P0) (k0_pay3 P1) (k0_pay5 P5) (k0_pay6 P6) (k0_pay8 P0 P1 P2 P3 P4) (k0_pay9 P0 P1 P2 P3 P4) P7 P8 P9 (ix2 p u) = Cert.Gru.candMean (blockWeights P2 P3 P4 P5 P6 P7 P8 P9 P10 P11) (Cert.Gru.row P0 p) (Cert.Gru.row P1 p) := by
  unfold k0_pay15
  dsimp only
  rw [divf_apply, col_of_vec, rowsum_512]
  unfold Cert.Gru.candMean
  refine congrArg₂ Ideal.div (Finset.sum_congr rfl fun j _ => ?_) rfl
  exact candLin_apply P0 P1 P2 P3 P4 P5 P6 P7 P8 P9 P10 P11 p j

/-- Row `p`'s candidate pre-activation less its mean. -/
theorem candDev_apply (p j : Fin 512) :
    k0_pay16 (F := Ideal) (k0_pay2 P0) (k0_pay3 P1) (k0_pay5 P5) (k0_pay6 P6) (k0_pay8 P0 P1 P2 P3 P4) (k0_pay9 P0 P1 P2 P3 P4) P7 P8 P9 (ix2 p j) = Cert.Gru.candDev (blockWeights P2 P3 P4 P5 P6 P7 P8 P9 P10 P11) (Cert.Gru.row P0 p) (Cert.Gru.row P1 p) j := by
  unfold k0_pay16
  rw [subf_apply, bcast_col_512, candLin_apply P0 P1 P2 P3 P4 P5 P6 P7 P8 P9 P10 P11, candMean_apply P0 P1 P2 P3 P4 P5 P6 P7 P8 P9 P10 P11]
  rfl

/-- The candidate layer norm's scale of row `p`, broadcast along the lanes. -/
theorem candScale_apply (p j : Fin 512) :
    k0_pay17 (F := Ideal) (k0_pay2 P0) (k0_pay3 P1) (k0_pay5 P5) (k0_pay6 P6) (k0_pay8 P0 P1 P2 P3 P4) (k0_pay9 P0 P1 P2 P3 P4) P7 P8 P9 (ix2 p j) = Cert.Gru.candScale (blockWeights P2 P3 P4 P5 P6 P7 P8 P9 P10 P11) (Cert.Gru.row P0 p) (Cert.Gru.row P1 p) := by
  unfold k0_pay17
  dsimp only
  rw [bcast_col_512, rsqrt_apply, addf_apply, divf_apply, col_of_vec, rowsum_512]
  unfold Cert.Gru.candScale Cert.Gru.candVar
  refine congrArg Ideal.rsqrt (congrArg₂ (· + ·) (congrArg₂ Ideal.div (Finset.sum_congr rfl fun j' _ => ?_) rfl) rfl)
  rw [mulf_apply]
  exact congrArg₂ (· * ·) (candDev_apply P0 P1 P2 P3 P4 P5 P6 P7 P8 P9 P10 P11 p j') (candDev_apply P0 P1 P2 P3 P4 P5 P6 P7 P8 P9 P10 P11 p j')

/-- THE STORED VALUE of row `p`, column `j`: the new hidden state of the row function. -/
theorem next_apply (p j : Fin 512) :
    k0_pay1 (F := Ideal) P1 (k0_pay11 (k0_pay5 P5) (k0_pay6 P6) (k0_pay8 P0 P1 P2 P3 P4) (k0_pay9 P0 P1 P2 P3 P4))
        (k0_pay13 P10) (k0_pay14 P11) (k0_pay16 (k0_pay2 P0) (k0_pay3 P1) (k0_pay5 P5) (k0_pay6 P6) (k0_pay8 P0 P1 P2 P3 P4) (k0_pay9 P0 P1 P2 P3 P4) P7 P8 P9) (k0_pay17 (k0_pay2 P0) (k0_pay3 P1) (k0_pay5 P5) (k0_pay6 P6) (k0_pay8 P0 P1 P2 P3 P4) (k0_pay9 P0 P1 P2 P3 P4) P7 P8 P9) (ix2 p j)
      = Cert.Gru.next (blockWeights P2 P3 P4 P5 P6 P7 P8 P9 P10 P11) (Cert.Gru.row P0 p) (Cert.Gru.row P1 p) j := by
  unfold k0_pay1 k0_pay13 k0_pay14
  dsimp only
  rw [addf_apply, mulf_apply, mulf_apply, subf_apply, tanh_apply, addf_apply, mulf_apply, mulf_apply,
    broadcastTo_1b_ab_apply, broadcastTo_1b_ab_apply, shapeCast_self, shapeCast_self, broadcast_apply,
    update_apply P0 P1 P2 P3 P4 P5 P6 P7 P8 P9 P10 P11, candDev_apply P0 P1 P2 P3 P4 P5 P6 P7 P8 P9 P10 P11, candScale_apply P0 P1 P2 P3 P4 P5 P6 P7 P8 P9 P10 P11]
  rfl

end Body

end Cert.KernelIdeal.RowValue

end
-- ==== Proof.KernelArray.lean ====
/-
  From the blocks to the array: the kernel's output array is `Cert.Gru.result` of the arguments.

  The grid has 128 points; point `t` works on batch rows `512·t … 512·t + 511`: the two activation windows and the
  output window move with `t`, every weight window stays on its whole array.  Six of the weight arrays are the
  `[1, N]` reshapes of rank-1 arguments that the program makes before the call.  So what point `t` writes back is
  block `t` of `result` (the row function at the block's rows is the row function at the array's rows), the 128
  blocks cover the array, and the array after the run is `result`.
-/
import proofs.«179115_j41712722378993_1_alg».proof.Proof.Gen.KernelIdeal.Value
import proofs.«179115_j41712722378993_1_alg».proof.Proof.KernelRow
import Idealize.ShloMosaic.Lib.StableHlo.Run

noncomputable section

namespace Cert.KernelIdeal.ArrayValue

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The reshaped rank-1 arguments, as the region finds them -/

/-- Window 3's array is the `[1, 1024]` reshape of a rank-1 argument. -/
theorem V_main_v0 (c : Dev nD) :
    (V m c main_v0 : S1x1024.Idx → EReal) = shapeCast S1x1024 (m ((c : Thread nD τ).loc main_arg3)) shapeCasts_S1024_S1x1024 := by
  dsimp only [Gen.V, Gen.hostOps0]
  after_results
  rfl

/-- Window 6's array is the `[1, 512]` reshape of a rank-1 argument. -/
theorem V_main_v1 (c : Dev nD) :
    (V m c main_v1 : S1x512.Idx → EReal) = shapeCast S1x512 (m ((c : Thread nD τ).loc main_arg6)) shapeCasts_S512_S1x512 := by
  dsimp only [Gen.V, Gen.hostOps0]
  after_results
  rfl

/-- Window 8's array is the `[1, 1024]` reshape of a rank-1 argument. -/
theorem V_main_v2 (c : Dev nD) :
    (V m c main_v2 : S1x1024.Idx → EReal) = shapeCast S1x1024 (m ((c : Thread nD τ).loc main_arg8)) shapeCasts_S1024_S1x1024 := by
  dsimp only [Gen.V, Gen.hostOps0]
  after_results
  rfl

/-- Window 9's array is the `[1, 1024]` reshape of a rank-1 argument. -/
theorem V_main_v3 (c : Dev nD) :
    (V m c main_v3 : S1x1024.Idx → EReal) = shapeCast S1x1024 (m ((c : Thread nD τ).loc main_arg9)) shapeCasts_S1024_S1x1024 := by
  dsimp only [Gen.V, Gen.hostOps0]
  after_results
  rfl

/-- Window 10's array is the `[1, 512]` reshape of a rank-1 argument. -/
theorem V_main_v4 (c : Dev nD) :
    (V m c main_v4 : S1x512.Idx → EReal) = shapeCast S1x512 (m ((c : Thread nD τ).loc main_arg10)) shapeCasts_S512_S1x512 := by
  dsimp only [Gen.V, Gen.hostOps0]
  after_results
  rfl

/-- Window 11's array is the `[1, 512]` reshape of a rank-1 argument. -/
theorem V_main_v5 (c : Dev nD) :
    (V m c main_v5 : S1x512.Idx → EReal) = shapeCast S1x512 (m ((c : Thread nD τ).loc main_arg11)) shapeCasts_S512_S1x512 := by
  dsimp only [Gen.V, Gen.hostOps0]
  after_results
  rfl

/-! ## The index maps, decided over the 128 grid points -/

/-- The two activation windows and the output window sit on block row `t`. -/
theorem idx_moving : ∀ t : Fin cfg0.N,
    win0_0.index t (0 : Fin 2) = t.val ∧ win0_0.index t (1 : Fin 2) = 0
    ∧ win0_1.index t (0 : Fin 2) = t.val ∧ win0_1.index t (1 : Fin 2) = 0
    ∧ win0_12.index t (0 : Fin 2) = t.val ∧ win0_12.index t (1 : Fin 2) = 0 :=
  (by decide +kernel : ∀ t : Fin grid0.N, _)

/-- Weight window 2 stays on its whole array. -/
theorem idx_2 : ∀ t : Fin cfg0.N, win0_2.index t (0 : Fin 2) = 0 ∧ win0_2.index t (1 : Fin 2) = 0 :=
  (by decide +kernel : ∀ t : Fin grid0.N, _)

/-- Weight window 3 stays on its whole array. -/
theorem idx_3 : ∀ t : Fin cfg0.N, win0_3.index t (0 : Fin 2) = 0 ∧ win0_3.index t (1 : Fin 2) = 0 :=
  (by decide +kernel : ∀ t : Fin grid0.N, _)

/-- Weight window 4 stays on its whole array. -/
theorem idx_4 : ∀ t : Fin cfg0.N, win0_4.index t (0 : Fin 2) = 0 ∧ win0_4.index t (1 : Fin 2) = 0 :=
  (by decide +kernel : ∀ t : Fin grid0.N, _)

/-- Weight window 5 stays on its whole array. -/
theorem idx_5 : ∀ t : Fin cfg0.N, win0_5.index t (0 : Fin 2) = 0 ∧ win0_5.index t (1 : Fin 2) = 0 :=
  (by decide +kernel : ∀ t : Fin grid0.N, _)

/-- Weight window 6 stays on its whole array. -/
theorem idx_6 : ∀ t : Fin cfg0.N, win0_6.index t (0 : Fin 2) = 0 ∧ win0_6.index t (1 : Fin 2) = 0 :=
  (by decide +kernel : ∀ t : Fin grid0.N, _)

/-- Weight window 7 stays on its whole array. -/
theorem idx_7 : ∀ t : Fin cfg0.N, win0_7.index t (0 : Fin 2) = 0 ∧ win0_7.index t (1 : Fin 2) = 0 :=
  (by decide +kernel : ∀ t : Fin grid0.N, _)

/-- Weight window 8 stays on its whole array. -/
theorem idx_8 : ∀ t : Fin cfg0.N, win0_8.index t (0 : Fin 2) = 0 ∧ win0_8.index t (1 : Fin 2) = 0 :=
  (by decide +kernel : ∀ t : Fin grid0.N, _)

/-- Weight window 9 stays on its whole array. -/
theorem idx_9 : ∀ t : Fin cfg0.N, win0_9.index t (0 : Fin 2) = 0 ∧ win0_9.index t (1 : Fin 2) = 0 :=
  (by decide +kernel : ∀ t : Fin grid0.N, _)

/-- Weight window 10 stays on its whole array. -/
theorem idx_10 : ∀ t : Fin cfg0.N, win0_10.index t (0 : Fin 2) = 0 ∧ win0_10.index t (1 : Fin 2) = 0 :=
  (by decide +kernel : ∀ t : Fin grid0.N, _)

/-- Weight window 11 stays on its whole array. -/
theorem idx_11 : ∀ t : Fin cfg0.N, win0_11.index t (0 : Fin 2) = 0 ∧ win0_11.index t (1 : Fin 2) = 0 :=
  (by decide +kernel : ∀ t : Fin grid0.N, _)

/-! ## The windows' blocks, read off the arguments -/

/-- Window 2's block at every point is its whole array. -/
theorem blk2_eq (c : Dev nD) (t : Fin cfg0.N) :
    (iblk m c 2 t : Vec Ideal S1024x512 .f32) = (m ((c : Thread nD τ).loc main_arg2)) := by
  funext y
  show V m c main_arg2 (((cfg0.win 2).blk t).view.emb y) = _
  rw [V_main_arg2]
  obtain ⟨e0, e1⟩ := idx_2 t
  refine congrArg _ (funext fun a => Fin.ext ?_)
  match a with
  | ⟨0, _⟩ => show win0_2.index t (0 : Fin 2) * 1024 + 1 * (y 0).val = (y 0).val; omega
  | ⟨1, _⟩ => show win0_2.index t (1 : Fin 2) * 512 + 1 * (y 1).val = (y 1).val; omega

/-- Window 3's block at every point is its whole array. -/
theorem blk3_eq (c : Dev nD) (t : Fin cfg0.N) :
    (iblk m c 3 t : Vec Ideal S1x1024 .f32) = shapeCast S1x1024 (m ((c : Thread nD τ).loc main_arg3)) shapeCasts_S1024_S1x1024 := by
  funext y
  show V m c main_v0 (((cfg0.win 3).blk t).view.emb y) = _
  rw [V_main_v0]
  obtain ⟨e0, e1⟩ := idx_3 t
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 1024 + 1 * (y 1).val = (y 1).val; omega

/-- Window 4's block at every point is its whole array. -/
theorem blk4_eq (c : Dev nD) (t : Fin cfg0.N) :
    (iblk m c 4 t : Vec Ideal S1024x512 .f32) = (m ((c : Thread nD τ).loc main_arg4)) := by
  funext y
  show V m c main_arg4 (((cfg0.win 4).blk t).view.emb y) = _
  rw [V_main_arg4]
  obtain ⟨e0, e1⟩ := idx_4 t
  refine congrArg _ (funext fun a => Fin.ext ?_)
  match a with
  | ⟨0, _⟩ => show win0_4.index t (0 : Fin 2) * 1024 + 1 * (y 0).val = (y 0).val; omega
  | ⟨1, _⟩ => show win0_4.index t (1 : Fin 2) * 512 + 1 * (y 1).val = (y 1).val; omega

/-- Window 5's block at every point is its whole array. -/
theorem blk5_eq (c : Dev nD) (t : Fin cfg0.N) :
    (iblk m c 5 t : Vec Ideal S512x512 .f32) = (m ((c : Thread nD τ).loc main_arg5)) := by
  funext y
  show V m c main_arg5 (((cfg0.win 5).blk t).view.emb y) = _
  rw [V_main_arg5]
  obtain ⟨e0, e1⟩ := idx_5 t
  refine congrArg _ (funext fun a => Fin.ext ?_)
  match a with
  | ⟨0, _⟩ => show win0_5.index t (0 : Fin 2) * 512 + 1 * (y 0).val = (y 0).val; omega
  | ⟨1, _⟩ => show win0_5.index t (1 : Fin 2) * 512 + 1 * (y 1).val = (y 1).val; omega

/-- Window 6's block at every point is its whole array. -/
theorem blk6_eq (c : Dev nD) (t : Fin cfg0.N) :
    (iblk m c 6 t : Vec Ideal S1x512 .f32) = shapeCast S1x512 (m ((c : Thread nD τ).loc main_arg6)) shapeCasts_S512_S1x512 := by
  funext y
  show V m c main_v1 (((cfg0.win 6).blk t).view.emb y) = _
  rw [V_main_v1]
  obtain ⟨e0, e1⟩ := idx_6 t
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 512 + 1 * (y 1).val = (y 1).val; omega

/-- Window 7's block at every point is its whole array. -/
theorem blk7_eq (c : Dev nD) (t : Fin cfg0.N) :
    (iblk m c 7 t : Vec Ideal S512x512 .f32) = (m ((c : Thread nD τ).loc main_arg7)) := by
  funext y
  show V m c main_arg7 (((cfg0.win 7).blk t).view.emb y) = _
  rw [V_main_arg7]
  obtain ⟨e0, e1⟩ := idx_7 t
  refine congrArg _ (funext fun a => Fin.ext ?_)
  match a with
  | ⟨0, _⟩ => show win0_7.index t (0 : Fin 2) * 512 + 1 * (y 0).val = (y 0).val; omega
  | ⟨1, _⟩ => show win0_7.index t (1 : Fin 2) * 512 + 1 * (y 1).val = (y 1).val; omega

/-- Window 8's block at every point is its whole array. -/
theorem blk8_eq (c : Dev nD) (t : Fin cfg0.N) :
    (iblk m c 8 t : Vec Ideal S1x1024 .f32) = shapeCast S1x1024 (m ((c : Thread nD τ).loc main_arg8)) shapeCasts_S1024_S1x1024 := by
  funext y
  show V m c main_v2 (((cfg0.win 8).blk t).view.emb y) = _
  rw [V_main_v2]
  obtain ⟨e0, e1⟩ := idx_8 t
  refine congrArg _ (funext fun a => Fin.ext ?_)
  match a with
  | ⟨0, _⟩ => show win0_8.index t (0 : Fin 2) * 1 + 1 * (y 0).val = (y 0).val; omega
  | ⟨1, _⟩ => show win0_8.index t (1 : Fin 2) * 1024 + 1 * (y 1).val = (y 1).val; omega

/-- Window 9's block at every point is its whole array. -/
theorem blk9_eq (c : Dev nD) (t : Fin cfg0.N) :
    (iblk m c 9 t : Vec Ideal S1x1024 .f32) = shapeCast S1x1024 (m ((c : Thread nD τ).loc main_arg9)) shapeCasts_S1024_S1x1024 := by
  funext y
  show V m c main_v3 (((cfg0.win 9).blk t).view.emb y) = _
  rw [V_main_v3]
  obtain ⟨e0, e1⟩ := idx_9 t
  refine congrArg _ (funext fun a => Fin.ext ?_)
  match a with
  | ⟨0, _⟩ => show win0_9.index t (0 : Fin 2) * 1 + 1 * (y 0).val = (y 0).val; omega
  | ⟨1, _⟩ => show win0_9.index t (1 : Fin 2) * 1024 + 1 * (y 1).val = (y 1).val; omega

/-- Window 10's block at every point is its whole array. -/
theorem blk10_eq (c : Dev nD) (t : Fin cfg0.N) :
    (iblk m c 10 t : Vec Ideal S1x512 .f32) = shapeCast S1x512 (m ((c : Thread nD τ).loc main_arg10)) shapeCasts_S512_S1x512 := by
  funext y
  show V m c main_v4 (((cfg0.win 10).blk t).view.emb y) = _
  rw [V_main_v4]
  obtain ⟨e0, e1⟩ := idx_10 t
  refine congrArg _ (funext fun a => Fin.ext ?_)
  match a with
  | ⟨0, _⟩ => show win0_10.index t (0 : Fin 2) * 1 + 1 * (y 0).val = (y 0).val; omega
  | ⟨1, _⟩ => show win0_10.index t (1 : Fin 2) * 512 + 1 * (y 1).val = (y 1).val; omega

/-- Window 11's block at every point is its whole array. -/
theorem blk11_eq (c : Dev nD) (t : Fin cfg0.N) :
    (iblk m c 11 t : Vec Ideal S1x512 .f32) = shapeCast S1x512 (m ((c : Thread nD τ).loc main_arg11)) shapeCasts_S512_S1x512 := by
  funext y
  show V m c main_v5 (((cfg0.win 11).blk t).view.emb y) = _
  rw [V_main_v5]
  obtain ⟨e0, e1⟩ := idx_11 t
  refine congrArg _ (funext fun a => Fin.ext ?_)
  match a with
  | ⟨0, _⟩ => show win0_11.index t (0 : Fin 2) * 1 + 1 * (y 0).val = (y 0).val; omega
  | ⟨1, _⟩ => show win0_11.index t (1 : Fin 2) * 512 + 1 * (y 1).val = (y 1).val; omega

/-- Row `p` of the input block at point `t` is row `512·t + p` of the input batch. -/
theorem xrow_eq (c : Dev nD) (t : Fin cfg0.N) (p : Fin 512) (b : Fin 65536) (hb : b.val = t.val * 512 + p.val) :
    Cert.Gru.row (iblk m c 0 t : Vec Ideal S512x512 .f32) p = Cert.Gru.row (B := 65536) (m ((c : Thread nD τ).loc main_arg0)) b := by
  funext k
  show V m c main_arg0 (((cfg0.win 0).blk t).view.emb (ix2 p k)) = (m ((c : Thread nD τ).loc main_arg0)) (ix2 b k)
  rw [V_main_arg0]
  obtain ⟨e0, e1, -⟩ := idx_moving t
  refine congrArg _ (funext fun a => Fin.ext ?_)
  match a with
  | ⟨0, _⟩ => show win0_0.index t (0 : Fin 2) * 512 + 1 * p.val = b.val; omega
  | ⟨1, _⟩ => show win0_0.index t (1 : Fin 2) * 512 + 1 * k.val = k.val; omega

/-- Row `p` of the hidden-state block at point `t` is row `512·t + p` of the previous hidden state. -/
theorem hrow_eq (c : Dev nD) (t : Fin cfg0.N) (p : Fin 512) (b : Fin 65536) (hb : b.val = t.val * 512 + p.val) :
    Cert.Gru.row (iblk m c 1 t : Vec Ideal S512x512 .f32) p = Cert.Gru.row (B := 65536) (m ((c : Thread nD τ).loc main_arg1)) b := by
  funext k
  show V m c main_arg1 (((cfg0.win 1).blk t).view.emb (ix2 p k)) = (m ((c : Thread nD τ).loc main_arg1)) (ix2 b k)
  rw [V_main_arg1]
  obtain ⟨-, -, e0, e1, -⟩ := idx_moving t
  refine congrArg _ (funext fun a => Fin.ext ?_)
  match a with
  | ⟨0, _⟩ => show win0_1.index t (0 : Fin 2) * 512 + 1 * p.val = b.val; omega
  | ⟨1, _⟩ => show win0_1.index t (1 : Fin 2) * 512 + 1 * k.val = k.val; omega

/-! ## The result as a function of the arguments -/

/-- The cell's weights, read off the ten weight arguments. -/
def weights (c : Dev nD) : Cert.Gru.Weights :=
  Cert.Gru.weightsOf (m ((c : Thread nD τ).loc main_arg2)) (m ((c : Thread nD τ).loc main_arg4)) (m ((c : Thread nD τ).loc main_arg3)) (m ((c : Thread nD τ).loc main_arg8)) (m ((c : Thread nD τ).loc main_arg9))
    (m ((c : Thread nD τ).loc main_arg5)) (m ((c : Thread nD τ).loc main_arg7)) (m ((c : Thread nD τ).loc main_arg6)) (m ((c : Thread nD τ).loc main_arg10)) (m ((c : Thread nD τ).loc main_arg11))

/-- What the output array holds after the run. -/
def final (c : Dev nD) : Buf (Elt Ideal) ((c : Thread nD τ).loc main_v6) :=
  Cert.Gru.result (m ((c : Thread nD τ).loc main_arg0)) (m ((c : Thread nD τ).loc main_arg1)) (weights m c)

/-- The weights the body loads at any point are the arguments' weights. -/
theorem blockWeights_eq (c : Dev nD) (t : Fin cfg0.N) :
    RowValue.blockWeights (iblk m c 2 t) (iblk m c 4 t) (iblk m c 3 t) (iblk m c 8 t) (iblk m c 9 t)
        (iblk m c 5 t) (iblk m c 7 t) (iblk m c 6 t) (iblk m c 10 t) (iblk m c 11 t) = weights m c := by
  rw [blk2_eq m c t, blk4_eq m c t, blk3_eq m c t, blk8_eq m c t, blk9_eq m c t, blk5_eq m c t, blk7_eq m c t, blk6_eq m c t,
    blk10_eq m c t, blk11_eq m c t]
  unfold RowValue.blockWeights weights Cert.Gru.weightsOf
  congr 1 <;> funext n <;> exact shapeCast_a_1a_apply _ _ (0 : Fin 1) n

/-! ## What a point writes back, and the array after the run -/

theorem hz : (![0, 0] : Fin 2 → Nat) = fun _ => 0 := funext fun a => by fin_cases a <;> rfl

/-- WHAT POINT `t` WRITES BACK is block `t` of the result: the body's stored value at `(p, j)` is the row function
    at rows `p` of the two activation blocks, which are rows `512·t + p` of the arguments. -/
theorem flushed_eq (c : Dev nD) (t : Fin cfg0.N) :
    (dats m 0 c).flushed 12 t = ((cfg0.win 12).blk t).view.read (Elt Ideal) (final m c) := by
  rw [Value.flushed12]
  unfold out0_12
  rw [View.canon_unit_zero hz]
  simp only [View.ld_unit_zero (S := S512x512) hz, View.ld_unit_zero (S := S1024x512) hz, View.ld_unit_zero (S := S1x1024) hz,
    View.ld_unit_zero (S := S1x512) hz]
  funext y
  obtain ⟨p, j, rfl⟩ : ∃ (p j : Fin 512), y = ix2 p j := ⟨y 0, y 1, eq_ix2 y⟩
  refine (RowValue.next_apply (iblk m c 0 t) (iblk m c 1 t) (iblk m c 2 t) (iblk m c 4 t) (iblk m c 3 t) (iblk m c 8 t) (iblk m c 9 t) (iblk m c 5 t) (iblk m c 7 t) (iblk m c 6 t) (iblk m c 10 t) (iblk m c 11 t) p j).trans ?_
  rw [blockWeights_eq m c t]
  obtain ⟨-, -, -, -, e0, e1⟩ := idx_moving t
  have hlt : t.val * 512 + p.val < 65536 := by have := t.isLt; have := p.isLt; have : cfg0.N = 128 := N_0; omega
  have hemb : ((cfg0.win 12).blk t).view.emb (ix2 p j) = ix2 (⟨t.val * 512 + p.val, hlt⟩ : Fin 65536) j := by
    funext a; apply Fin.ext
    match a with
    | ⟨0, _⟩ => show win0_12.index t (0 : Fin 2) * 512 + 1 * p.val = t.val * 512 + p.val; omega
    | ⟨1, _⟩ => show win0_12.index t (1 : Fin 2) * 512 + 1 * j.val = j.val; omega
  show _ = final m c (((cfg0.win 12).blk t).view.emb (ix2 p j))
  rw [hemb]
  show _ = Cert.Gru.next (weights m c) (Cert.Gru.row (B := 65536) (m ((c : Thread nD τ).loc main_arg0)) ⟨t.val * 512 + p.val, hlt⟩)
    (Cert.Gru.row (B := 65536) (m ((c : Thread nD τ).loc main_arg1)) ⟨t.val * 512 + p.val, hlt⟩) j
  rw [xrow_eq m c t p ⟨t.val * 512 + p.val, hlt⟩ rfl, hrow_eq m c t p ⟨t.val * 512 + p.val, hlt⟩ rfl]

/-- An index of the output array is in point `t`'s block iff each coordinate is in the block's range on its axis. -/
theorem mem_blk (t : Fin cfg0.N) (i : S65536x512.Idx) :
    i ∈ ((cfg0.win 12).blk t).view.set ↔ ∀ a : Fin 2, win0_12.index t a * S512x512.size a ≤ (i a).val ∧ (i a).val < win0_12.index t a * S512x512.size a + S512x512.size a := by
  show i ∈ ((View.whole main_v6).slice (win0_12.rect t)).set ↔ _
  rw [View.set_slice_whole, Rect.mem_set_unit]
  exact Iff.rfl

/-- The 128 blocks cover the array: row `b` lies in the block of point `b / 512`. -/
theorem cover (i : S65536x512.Idx) :
    ∃ t : Fin cfg0.N, (cfg0.win 12).flush t = true ∧ i ∈ ((cfg0.win 12).blk t).view.set := by
  have hi0 : (i 0).val < 65536 := (i 0).isLt
  have hi1 : (i 1).val < 512 := (i 1).isLt
  have hN : cfg0.N = 128 := N_0
  have hN' : grid0.N = 128 := N_0
  refine ⟨⟨(i 0).val / 512, by omega⟩, flush0_12 _, ?_⟩
  obtain ⟨-, -, -, -, e0, e1⟩ := idx_moving ⟨(i 0).val / 512, by omega⟩
  rw [mem_blk]
  intro a
  match a with
  | ⟨0, _⟩ =>
    show win0_12.index ⟨(i 0).val / 512, _⟩ (0 : Fin 2) * 512 ≤ (i 0).val ∧ (i 0).val < win0_12.index ⟨(i 0).val / 512, _⟩ (0 : Fin 2) * 512 + 512
    have e0' : win0_12.index ⟨(i 0).val / 512, by omega⟩ (0 : Fin 2) = (i 0).val / 512 := e0
    omega
  | ⟨1, _⟩ =>
    show win0_12.index ⟨(i 0).val / 512, _⟩ (1 : Fin 2) * 512 ≤ (i 1).val ∧ (i 1).val < win0_12.index ⟨(i 0).val / 512, _⟩ (1 : Fin 2) * 512 + 512
    omega

/-- THE ARRAY after the run is the result. -/
theorem arrAt_eq (c : Dev nD) : (dats m 0 c).arrAt 12 cfg0.N = final m c :=
  (dats m 0 c).arrAt_eq_of_cover 12 (final m c) (fun t _ => flushed_eq m c t) cover

/-- The kernel's run: every weakly fair execution ends with the output array at the result and the arguments unchanged. -/
theorem run : θ_run defs (onTc (τ := τ) (main (F := Ideal))) ⟨m, fun _ => 0, ρ⟩ fun r => ∀ c : Dev nD,
      r.2.mem ((c : Thread nD τ).loc main_v6) = final m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (arrAt_eq m c), (h c).2⟩) (Value.run_blocks m ρ)

end Cert.KernelIdeal.ArrayValue

end
-- ==== Proof.RefGru.lean ====
/-
  The reference program computes the layer-normalised GRU cell of `Cert.Gru.result`.

  The reference is read one operation at a time, always at explicit coordinates: a row `b` of the batch and a
  column `n` of the 1024 gate columns or `j` of the 512 hidden columns.  Each lemma below says what one
  mathematically meaningful stage is at those coordinates, in the vocabulary of `Cert.Gru`, and uses the stages before it:

    the two gate products and the bias          →  `gateLin`   (the bias is added between the two products; addition
                                                                 of extended reals is commutative and associative)
    the row sum over 1024 columns, over 1024    →  `gateMean`  (the sum starts from the word of 0, which is 0)
    the difference from the mean                →  `gateDev`
    the row sum of its squares, over 1024       →  `gateVar`
    the reciprocal square root of (that + ε)    →  `gateScale`
    deviation · scale · γ + β, then 1/(1+e^(−v)) →  `gate`      (the word of 1 is 1, and `1 / (1 + exp (−v))` is
                                                                 the logistic function by definition)
    the two column slices                       →  `gate` at columns `lo j` and `hi j`
    (x·Wcᵀ + bc) + r · (h·Ucᵀ)                  →  `candLin`, then its mean, deviation, variance, scale as before,
    tanh of the normalised value                →  `cand`
    (1 − z) · h + z · tanh(…)                    →  `next`, which is `result` at that index.

  An index the reference computes from another (a transpose, a broadcast, a slice, the running index of a sum) is
  identified with the index built from the coordinates by comparing the two coordinate by coordinate.
-/
import proofs.«179115_j41712722378993_1_alg».proof.Proof.Gen.ReferenceIdeal.Read
import proofs.«179115_j41712722378993_1_alg».proof.Proof.GruCell
import Idealize.ShloMosaic.Lib.ValueIdx
import Idealize.ShloMosaic.Lib.IdealHost
import Idealize.ShloMosaic.PureOps.Ideal.Laws

noncomputable section

namespace Cert.ReferenceIdeal.RefValue

open Cert.ReferenceIdeal Cert.ReferenceIdeal.Read Cert.Gru Idealize.ShloMosaic Idealize.ShloMosaic.ValueIdx

/-- Two rank-1 indices are equal when their one coordinate is. -/
local macro "idx1" : tactic =>
  `(tactic| exact funext fun a => Fin.ext (by match a with | ⟨0, _⟩ => rfl))
/-- Two rank-2 indices are equal when both coordinates are. -/
local macro "idx2" : tactic =>
  `(tactic| exact funext fun a => Fin.ext (by match a with | ⟨0, _⟩ => rfl | ⟨1, _⟩ => rfl))

variable (x0 x1 : FVec Ideal S65536x512 .f32) (x2 : FVec Ideal S1024x512 .f32) (x3 : FVec Ideal S1024 .f32)
  (x4 : FVec Ideal S1024x512 .f32) (x5 : FVec Ideal S512x512 .f32) (x6 : FVec Ideal S512 .f32)
  (x7 : FVec Ideal S512x512 .f32) (x8 x9 : FVec Ideal S1024 .f32) (x10 x11 : FVec Ideal S512 .f32)

/-- The cell's weights, read off the ten weight arguments. -/
local notation "P" => weightsOf x2 x4 x3 x8 x9 x5 x7 x6 x10 x11

/-! ## The gate pre-activation -/

/-- The input product `x · Wgᵀ` at row `b`, column `n`: the transpose reads `Wg` at `(n, k)`. -/
theorem v1_at (b : Fin 65536) (n : Fin 1024) :
    val_main_v1 (F := Ideal) x0 x2 (ix2 b n) = ∑ k : Fin 512, x0 (ix2 b k) * x2 (ix2 n k) := by
  rw [val_main_v1_apply]
  refine Finset.sum_congr rfl fun k _ => ?_
  rw [val_main_v0_apply]
  exact congrArg₂ (· * ·) (congrArg x0 (by idx2)) (congrArg x2 (by idx2))

/-- The gate bias broadcast over the rows. -/
theorem v3_at (b : Fin 65536) (n : Fin 1024) : val_main_v3 (F := Ideal) x3 (ix2 b n) = x3 (ix1 n) := by
  rw [val_main_v3_apply, val_main_v2_apply]
  exact congrArg x3 (by idx1)

/-- The hidden-state product `h · Ugᵀ` at row `b`, column `n`. -/
theorem v6_at (b : Fin 65536) (n : Fin 1024) :
    val_main_v6 (F := Ideal) x1 x4 (ix2 b n) = ∑ k : Fin 512, x1 (ix2 b k) * x4 (ix2 n k) := by
  rw [val_main_v6_apply]
  refine Finset.sum_congr rfl fun k _ => ?_
  rw [val_main_v5_apply]
  exact congrArg₂ (· * ·) (congrArg x1 (by idx2)) (congrArg x4 (by idx2))

/-- The gate pre-activation: (input product + bias) + hidden-state product, which is `gateLin`. -/
theorem v7_at (b : Fin 65536) (n : Fin 1024) :
    val_main_v7 (F := Ideal) x0 x1 x2 x3 x4 (ix2 b n) = gateLin P (row x0 b) (row x1 b) n := by
  rw [val_main_v7_apply, val_main_v4_apply, v1_at, v3_at, v6_at]
  exact gateLin_bias_between P (row x0 b) (row x1 b) n

/-! ## The gate layer norm -/

/-- The row sum of the gate pre-activations: the sum starts from the word of 0, which is 0. -/
theorem v8_at (b : Fin 65536) :
    val_main_v8 (F := Ideal) x0 x1 x2 x3 x4 (ix1 b) = ∑ n : Fin 1024, gateLin P (row x0 b) (row x1 b) n := by
  rw [val_main_v8_apply, val_main_cst_apply, Ideal.ofBits_def, Ideal.ofBits_zero_f32, zero_add]
  refine Finset.sum_congr rfl fun n _ => ?_
  exact (congrArg (val_main_v7 (F := Ideal) x0 x1 x2 x3 x4) (by idx2)).trans
    (v7_at x0 x1 x2 x3 x4 x5 x6 x7 x8 x9 x10 x11 b n)

/-- The row mean: the row sum over the word of 1024. -/
theorem v11_at (b : Fin 65536) :
    val_main_v11 (F := Ideal) x0 x1 x2 x3 x4 (ix2 b (0 : Fin 1)) = gateMean P (row x0 b) (row x1 b) := by
  rw [val_main_v11_apply, val_main_v9_apply, val_main_v10_apply, val_main_cst_0_apply]
  rw [show idx_main_v9 (ix2 b (0 : Fin 1)) = ix1 b by idx1, v8_at x0 x1 x2 x3 x4 x5 x6 x7 x8 x9 x10 x11 b]
  rfl

/-- The mean broadcast along the row (first use). -/
theorem v12_at (b : Fin 65536) (n : Fin 1024) :
    val_main_v12 (F := Ideal) x0 x1 x2 x3 x4 (ix2 b n) = gateMean P (row x0 b) (row x1 b) := by
  rw [val_main_v12_apply]
  exact (congrArg (val_main_v11 (F := Ideal) x0 x1 x2 x3 x4) (by idx2)).trans
    (v11_at x0 x1 x2 x3 x4 x5 x6 x7 x8 x9 x10 x11 b)

/-- The mean broadcast along the row (second use). -/
theorem v19_at (b : Fin 65536) (n : Fin 1024) :
    val_main_v19 (F := Ideal) x0 x1 x2 x3 x4 (ix2 b n) = gateMean P (row x0 b) (row x1 b) := by
  rw [val_main_v19_apply]
  exact (congrArg (val_main_v11 (F := Ideal) x0 x1 x2 x3 x4) (by idx2)).trans
    (v11_at x0 x1 x2 x3 x4 x5 x6 x7 x8 x9 x10 x11 b)

/-- The deviation from the mean (the copy that is squared). -/
theorem v13_at (b : Fin 65536) (n : Fin 1024) :
    val_main_v13 (F := Ideal) x0 x1 x2 x3 x4 (ix2 b n) = gateDev P (row x0 b) (row x1 b) n := by
  rw [val_main_v13_apply, v7_at x0 x1 x2 x3 x4 x5 x6 x7 x8 x9 x10 x11, v12_at x0 x1 x2 x3 x4 x5 x6 x7 x8 x9 x10 x11]
  rfl

/-- The deviation from the mean (the copy that is normalised). -/
theorem v20_at (b : Fin 65536) (n : Fin 1024) :
    val_main_v20 (F := Ideal) x0 x1 x2 x3 x4 (ix2 b n) = gateDev P (row x0 b) (row x1 b) n := by
  rw [val_main_v20_apply, v7_at x0 x1 x2 x3 x4 x5 x6 x7 x8 x9 x10 x11, v19_at x0 x1 x2 x3 x4 x5 x6 x7 x8 x9 x10 x11]
  rfl

/-- The row sum of the squared deviations. -/
theorem v15_at (b : Fin 65536) :
    val_main_v15 (F := Ideal) x0 x1 x2 x3 x4 (ix1 b)
      = ∑ n : Fin 1024, gateDev P (row x0 b) (row x1 b) n * gateDev P (row x0 b) (row x1 b) n := by
  rw [val_main_v15_apply, val_main_cst_1_apply, Ideal.ofBits_def, Ideal.ofBits_zero_f32, zero_add]
  refine Finset.sum_congr rfl fun n _ => ?_
  rw [show idx_main_v15 (ix1 b) n = ix2 b n by idx2, val_main_v14_apply,
    v13_at x0 x1 x2 x3 x4 x5 x6 x7 x8 x9 x10 x11]
  rfl

/-- The row variance: the mean of the squared deviations. -/
theorem v18_at (b : Fin 65536) :
    val_main_v18 (F := Ideal) x0 x1 x2 x3 x4 (ix2 b (0 : Fin 1)) = gateVar P (row x0 b) (row x1 b) := by
  rw [val_main_v18_apply, val_main_v16_apply, val_main_v17_apply, val_main_cst_2_apply]
  rw [show idx_main_v16 (ix2 b (0 : Fin 1)) = ix1 b by idx1, v15_at x0 x1 x2 x3 x4 x5 x6 x7 x8 x9 x10 x11 b]
  rfl

/-- The row scale: the reciprocal square root of the variance plus ε. -/
theorem v23_at (b : Fin 65536) :
    val_main_v23 (F := Ideal) x0 x1 x2 x3 x4 (ix2 b (0 : Fin 1)) = gateScale P (row x0 b) (row x1 b) := by
  rw [val_main_v23_apply, val_main_v22_apply, val_main_v21_apply, val_main_cst_3_apply,
    v18_at x0 x1 x2 x3 x4 x5 x6 x7 x8 x9 x10 x11 b]
  rfl

/-- The scale broadcast along the row. -/
theorem v24_at (b : Fin 65536) (n : Fin 1024) :
    val_main_v24 (F := Ideal) x0 x1 x2 x3 x4 (ix2 b n) = gateScale P (row x0 b) (row x1 b) := by
  rw [val_main_v24_apply]
  exact (congrArg (val_main_v23 (F := Ideal) x0 x1 x2 x3 x4) (by idx2)).trans
    (v23_at x0 x1 x2 x3 x4 x5 x6 x7 x8 x9 x10 x11 b)

/-- The gate layer norm's γ broadcast over the rows. -/
theorem v27_at (b : Fin 65536) (n : Fin 1024) : val_main_v27 (F := Ideal) x8 (ix2 b n) = x8 (ix1 n) := by
  rw [val_main_v27_apply, val_main_v26_apply]
  exact congrArg x8 (by idx1)

/-- The gate layer norm's β broadcast over the rows. -/
theorem v30_at (b : Fin 65536) (n : Fin 1024) : val_main_v30 (F := Ideal) x9 (ix2 b n) = x9 (ix1 n) := by
  rw [val_main_v30_apply, val_main_v29_apply]
  exact congrArg x9 (by idx1)

/-- The normalised gate pre-activation: deviation · scale · γ + β. -/
theorem v31_at (b : Fin 65536) (n : Fin 1024) :
    val_main_v31 (F := Ideal) x0 x1 x2 x3 x4 x8 x9 (ix2 b n)
      = gateDev P (row x0 b) (row x1 b) n * gateScale P (row x0 b) (row x1 b) * (P).γg n + (P).βg n := by
  rw [val_main_v31_apply, val_main_v28_apply, val_main_v25_apply, v20_at x0 x1 x2 x3 x4 x5 x6 x7 x8 x9 x10 x11,
    v24_at x0 x1 x2 x3 x4 x5 x6 x7 x8 x9 x10 x11, v27_at, v30_at]
  rfl

/-! ## The gates -/

/-- The gate: `1 / (1 + exp (−v))` of the normalised pre-activation, with the word of 1 being 1, is the logistic
    function of it. -/
theorem v37_at (b : Fin 65536) (n : Fin 1024) :
    val_main_v37 (F := Ideal) x0 x1 x2 x3 x4 x8 x9 (ix2 b n) = gate P (row x0 b) (row x1 b) n := by
  rw [val_main_v37_apply, val_main_v36_apply, val_main_cst_5_apply, val_main_v35_apply, val_main_v34_apply,
    val_main_cst_4_apply, val_main_v33_apply, val_main_v32_apply, v31_at x0 x1 x2 x3 x4 x5 x6 x7 x8 x9 x10 x11,
    Ideal.ofBits_def, Ideal.ofBits_one_f32]
  rfl

/-- The reset gate: the first 512 gate columns. -/
theorem v38_at (b : Fin 65536) (j : Fin 512) :
    val_main_v38 (F := Ideal) x0 x1 x2 x3 x4 x8 x9 (ix2 b j) = gate P (row x0 b) (row x1 b) (lo j) := by
  rw [val_main_v38_apply]
  exact (congrArg (val_main_v37 (F := Ideal) x0 x1 x2 x3 x4 x8 x9) (by idx2)).trans
    (v37_at x0 x1 x2 x3 x4 x5 x6 x7 x8 x9 x10 x11 b (lo j))

/-- The update gate: the last 512 gate columns. -/
theorem v39_at (b : Fin 65536) (j : Fin 512) :
    val_main_v39 (F := Ideal) x0 x1 x2 x3 x4 x8 x9 (ix2 b j) = gate P (row x0 b) (row x1 b) (hi j) := by
  rw [val_main_v39_apply]
  exact (congrArg (val_main_v37 (F := Ideal) x0 x1 x2 x3 x4 x8 x9) (by idx2)).trans
    (v37_at x0 x1 x2 x3 x4 x5 x6 x7 x8 x9 x10 x11 b (hi j))

/-! ## The candidate pre-activation -/

/-- The input product `x · Wcᵀ` at row `b`, column `j`. -/
theorem v41_at (b : Fin 65536) (j : Fin 512) :
    val_main_v41 (F := Ideal) x0 x5 (ix2 b j) = ∑ k : Fin 512, x0 (ix2 b k) * x5 (ix2 j k) := by
  rw [val_main_v41_apply]
  refine Finset.sum_congr rfl fun k _ => ?_
  rw [val_main_v40_apply]
  exact congrArg₂ (· * ·) (congrArg x0 (by idx2)) (congrArg x5 (by idx2))

/-- The candidate bias broadcast over the rows. -/
theorem v43_at (b : Fin 65536) (j : Fin 512) : val_main_v43 (F := Ideal) x6 (ix2 b j) = x6 (ix1 j) := by
  rw [val_main_v43_apply, val_main_v42_apply]
  exact congrArg x6 (by idx1)

/-- The hidden-state product `h · Ucᵀ` at row `b`, column `j`. -/
theorem v46_at (b : Fin 65536) (j : Fin 512) :
    val_main_v46 (F := Ideal) x1 x7 (ix2 b j) = ∑ k : Fin 512, x1 (ix2 b k) * x7 (ix2 j k) := by
  rw [val_main_v46_apply]
  refine Finset.sum_congr rfl fun k _ => ?_
  rw [val_main_v45_apply]
  exact congrArg₂ (· * ·) (congrArg x1 (by idx2)) (congrArg x7 (by idx2))

/-- The candidate pre-activation: (input product + bias) + reset gate · hidden-state product. -/
theorem v48_at (b : Fin 65536) (j : Fin 512) :
    val_main_v48 (F := Ideal) x0 x1 x2 x3 x4 x5 x6 x7 x8 x9 (ix2 b j) = candLin P (row x0 b) (row x1 b) j := by
  rw [val_main_v48_apply, val_main_v44_apply, val_main_v47_apply, v41_at, v43_at, v46_at,
    v38_at x0 x1 x2 x3 x4 x5 x6 x7 x8 x9 x10 x11]
  rfl

/-! ## The candidate layer norm -/

/-- The row sum of the candidate pre-activations. -/
theorem v49_at (b : Fin 65536) :
    val_main_v49 (F := Ideal) x0 x1 x2 x3 x4 x5 x6 x7 x8 x9 (ix1 b)
      = ∑ j : Fin 512, candLin P (row x0 b) (row x1 b) j := by
  rw [val_main_v49_apply, val_main_cst_6_apply, Ideal.ofBits_def, Ideal.ofBits_zero_f32, zero_add]
  refine Finset.sum_congr rfl fun j _ => ?_
  exact (congrArg (val_main_v48 (F := Ideal) x0 x1 x2 x3 x4 x5 x6 x7 x8 x9) (by idx2)).trans
    (v48_at x0 x1 x2 x3 x4 x5 x6 x7 x8 x9 x10 x11 b j)

/-- The row mean: the row sum over the word of 512. -/
theorem v52_at (b : Fin 65536) :
    val_main_v52 (F := Ideal) x0 x1 x2 x3 x4 x5 x6 x7 x8 x9 (ix2 b (0 : Fin 1))
      = candMean P (row x0 b) (row x1 b) := by
  rw [val_main_v52_apply, val_main_v50_apply, val_main_v51_apply, val_main_cst_7_apply]
  rw [show idx_main_v50 (ix2 b (0 : Fin 1)) = ix1 b by idx1, v49_at x0 x1 x2 x3 x4 x5 x6 x7 x8 x9 x10 x11 b]
  rfl

/-- The mean broadcast along the row (first use). -/
theorem v53_at (b : Fin 65536) (j : Fin 512) :
    val_main_v53 (F := Ideal) x0 x1 x2 x3 x4 x5 x6 x7 x8 x9 (ix2 b j) = candMean P (row x0 b) (row x1 b) := by
  rw [val_main_v53_apply]
  exact (congrArg (val_main_v52 (F := Ideal) x0 x1 x2 x3 x4 x5 x6 x7 x8 x9) (by idx2)).trans
    (v52_at x0 x1 x2 x3 x4 x5 x6 x7 x8 x9 x10 x11 b)

/-- The mean broadcast along the row (second use). -/
theorem v60_at (b : Fin 65536) (j : Fin 512) :
    val_main_v60 (F := Ideal) x0 x1 x2 x3 x4 x5 x6 x7 x8 x9 (ix2 b j) = candMean P (row x0 b) (row x1 b) := by
  rw [val_main_v60_apply]
  exact (congrArg (val_main_v52 (F := Ideal) x0 x1 x2 x3 x4 x5 x6 x7 x8 x9) (by idx2)).trans
    (v52_at x0 x1 x2 x3 x4 x5 x6 x7 x8 x9 x10 x11 b)

/-- The deviation from the mean (the copy that is squared). -/
theorem v54_at (b : Fin 65536) (j : Fin 512) :
    val_main_v54 (F := Ideal) x0 x1 x2 x3 x4 x5 x6 x7 x8 x9 (ix2 b j) = candDev P (row x0 b) (row x1 b) j := by
  rw [val_main_v54_apply, v48_at x0 x1 x2 x3 x4 x5 x6 x7 x8 x9 x10 x11, v53_at x0 x1 x2 x3 x4 x5 x6 x7 x8 x9 x10 x11]
  rfl

/-- The deviation from the mean (the copy that is normalised). -/
theorem v61_at (b : Fin 65536) (j : Fin 512) :
    val_main_v61 (F := Ideal) x0 x1 x2 x3 x4 x5 x6 x7 x8 x9 (ix2 b j) = candDev P (row x0 b) (row x1 b) j := by
  rw [val_main_v61_apply, v48_at x0 x1 x2 x3 x4 x5 x6 x7 x8 x9 x10 x11, v60_at x0 x1 x2 x3 x4 x5 x6 x7 x8 x9 x10 x11]
  rfl

/-- The row sum of the squared deviations. -/
theorem v56_at (b : Fin 65536) :
    val_main_v56 (F := Ideal) x0 x1 x2 x3 x4 x5 x6 x7 x8 x9 (ix1 b)
      = ∑ j : Fin 512, candDev P (row x0 b) (row x1 b) j * candDev P (row x0 b) (row x1 b) j := by
  rw [val_main_v56_apply, val_main_cst_8_apply, Ideal.ofBits_def, Ideal.ofBits_zero_f32, zero_add]
  refine Finset.sum_congr rfl fun j _ => ?_
  rw [show idx_main_v56 (ix1 b) j = ix2 b j by idx2, val_main_v55_apply, v54_at x0 x1 x2 x3 x4 x5 x6 x7 x8 x9 x10 x11]
  rfl

/-- The row variance: the mean of the squared deviations. -/
theorem v59_at (b : Fin 65536) :
    val_main_v59 (F := Ideal) x0 x1 x2 x3 x4 x5 x6 x7 x8 x9 (ix2 b (0 : Fin 1))
      = candVar P (row x0 b) (row x1 b) := by
  rw [val_main_v59_apply, val_main_v57_apply, val_main_v58_apply, val_main_cst_9_apply]
  rw [show idx_main_v57 (ix2 b (0 : Fin 1)) = ix1 b by idx1, v56_at x0 x1 x2 x3 x4 x5 x6 x7 x8 x9 x10 x11 b]
  rfl

/-- The row scale: the reciprocal square root of the variance plus ε. -/
theorem v64_at (b : Fin 65536) :
    val_main_v64 (F := Ideal) x0 x1 x2 x3 x4 x5 x6 x7 x8 x9 (ix2 b (0 : Fin 1))
      = candScale P (row x0 b) (row x1 b) := by
  rw [val_main_v64_apply, val_main_v63_apply, val_main_v62_apply, val_main_cst_10_apply, v59_at x0 x1 x2 x3 x4 x5 x6 x7 x8 x9 x10 x11 b]
  rfl

/-- The scale broadcast along the row. -/
theorem v65_at (b : Fin 65536) (j : Fin 512) :
    val_main_v65 (F := Ideal) x0 x1 x2 x3 x4 x5 x6 x7 x8 x9 (ix2 b j) = candScale P (row x0 b) (row x1 b) := by
  rw [val_main_v65_apply]
  exact (congrArg (val_main_v64 (F := Ideal) x0 x1 x2 x3 x4 x5 x6 x7 x8 x9) (by idx2)).trans
    (v64_at x0 x1 x2 x3 x4 x5 x6 x7 x8 x9 x10 x11 b)

/-- The candidate layer norm's γ broadcast over the rows. -/
theorem v68_at (b : Fin 65536) (j : Fin 512) : val_main_v68 (F := Ideal) x10 (ix2 b j) = x10 (ix1 j) := by
  rw [val_main_v68_apply, val_main_v67_apply]
  exact congrArg x10 (by idx1)

/-- The candidate layer norm's β broadcast over the rows. -/
theorem v71_at (b : Fin 65536) (j : Fin 512) : val_main_v71 (F := Ideal) x11 (ix2 b j) = x11 (ix1 j) := by
  rw [val_main_v71_apply, val_main_v70_apply]
  exact congrArg x11 (by idx1)

/-- The candidate: tanh of deviation · scale · γ + β. -/
theorem v73_at (b : Fin 65536) (j : Fin 512) :
    val_main_v73 (F := Ideal) x0 x1 x2 x3 x4 x5 x6 x7 x8 x9 x10 x11 (ix2 b j) = cand P (row x0 b) (row x1 b) j := by
  rw [val_main_v73_apply, val_main_v72_apply, val_main_v69_apply, val_main_v66_apply, v61_at x0 x1 x2 x3 x4 x5 x6 x7 x8 x9 x10 x11,
    v65_at x0 x1 x2 x3 x4 x5 x6 x7 x8 x9 x10 x11, v68_at, v71_at]
  rfl

/-! ## The new hidden state -/

/-- The blend `(1 − z) · h + z · tanh(…)` at row `b`, column `j`. -/
theorem v78_at (b : Fin 65536) (j : Fin 512) :
    val_main_v78 (F := Ideal) x0 x1 x2 x3 x4 x5 x6 x7 x8 x9 x10 x11 (ix2 b j) = next P (row x0 b) (row x1 b) j := by
  rw [val_main_v78_apply, val_main_v76_apply, val_main_v75_apply, val_main_v74_apply, val_main_cst_11_apply,
    val_main_v77_apply, v39_at x0 x1 x2 x3 x4 x5 x6 x7 x8 x9 x10 x11, v73_at x0 x1 x2 x3 x4 x5 x6 x7 x8 x9 x10 x11]
  rfl

/-- THE REFERENCE'S RESULT is the cell's result, index by index: every index is a row and a column. -/
theorem val_eq_result (x0 x1 : FVec Ideal S65536x512 .f32) (x2 : FVec Ideal S1024x512 .f32) (x3 : FVec Ideal S1024 .f32) (x4 : FVec Ideal S1024x512 .f32) (x5 : FVec Ideal S512x512 .f32) (x6 : FVec Ideal S512 .f32) (x7 : FVec Ideal S512x512 .f32) (x8 x9 : FVec Ideal S1024 .f32) (x10 x11 : FVec Ideal S512 .f32) :
    Cert.ReferenceIdeal.Read.val_main_v78 (F := Ideal) x0 x1 x2 x3 x4 x5 x6 x7 x8 x9 x10 x11
      = Cert.Gru.result x0 x1 (Cert.Gru.weightsOf x2 x4 x3 x8 x9 x5 x7 x6 x10 x11) := by
  funext i
  have hi : i = ix2 (i 0 : Fin 65536) (i 1 : Fin 512) := by idx2
  exact (congrArg (val_main_v78 (F := Ideal) x0 x1 x2 x3 x4 x5 x6 x7 x8 x9 x10 x11) hi).trans
    (v78_at x0 x1 x2 x3 x4 x5 x6 x7 x8 x9 x10 x11 (i 0) (i 1))

end Cert.ReferenceIdeal.RefValue

end
-- ==== Proof.lean ====
/-
  The certificate of a layer-normalised GRU cell: the Pallas kernel against its jnp reference, over the extended reals.

  Both programs compute, for every batch row, the function `Cert.Gru.next` of Proof/GruCell.lean of that row of the
  input, the matching row of the previous hidden state, and the weights: two gate products plus a bias, layer norm over
  the 1024 gate columns, the logistic function; the candidate state from the input product, its bias and the
  reset-gated hidden product, layer norm over the 512 columns, tanh; and the update-gated blend of old and candidate
  state.  At the ideal instance the kernel's changes of float format are the identity, its matrix products into a zero
  accumulator and the reference's `dot_general` are the same sums, its lane reductions and the reference's reduce are
  the same row sums, and its logistic operation is the reference's `1 / (1 + exp (−v))`.  The two programs differ only in
  where the gate bias enters the sum of the two products, and addition of extended reals is commutative and associative,
  so no finiteness of the inputs is needed and the precondition is never opened.

  Proof/KernelRow.lean reads the kernel body's stored value at a row and column as `next`; Proof/KernelArray.lean
  carries that from the 128 blocks of 512 rows to the whole output array (the weight windows stay on their arrays, six
  of them `[1, N]` reshapes of rank-1 arguments); Proof/RefGru.lean reads the reference's result as the same function.
  The three frames are the generated ones (the reference's is its generated run with the result dropped), and the
  idealization ledger is empty.
-/
import proofs.«179115_j41712722378993_1_alg».proof.Defs
import proofs.«179115_j41712722378993_1_alg».proof.Proof.Gen.Kernel
import proofs.«179115_j41712722378993_1_alg».proof.Proof.Gen.Kernel.Skeleton
import proofs.«179115_j41712722378993_1_alg».proof.Proof.Gen.Kernel.Launch
import proofs.«179115_j41712722378993_1_alg».proof.Proof.Gen.Kernel.Points
import proofs.«179115_j41712722378993_1_alg».proof.Proof.Gen.Kernel.Frame
import proofs.«179115_j41712722378993_1_alg».proof.Proof.Gen.KernelIdeal
import proofs.«179115_j41712722378993_1_alg».proof.Proof.Gen.KernelIdeal.Skeleton
import proofs.«179115_j41712722378993_1_alg».proof.Proof.Gen.KernelIdeal.Launch
import proofs.«179115_j41712722378993_1_alg».proof.Proof.Gen.KernelIdeal.Points
import proofs.«179115_j41712722378993_1_alg».proof.Proof.Gen.KernelIdeal.Frame
import proofs.«179115_j41712722378993_1_alg».proof.Proof.Gen.ReferenceIdeal
import proofs.«179115_j41712722378993_1_alg».proof.Proof.Gen.Pre_finite_inputs
import proofs.«179115_j41712722378993_1_alg».proof.Proof.Gen.KernelIdeal.Value
import proofs.«179115_j41712722378993_1_alg».proof.Proof.Gen.ReferenceIdeal.Run
import proofs.«179115_j41712722378993_1_alg».proof.Proof.Gen.ReferenceIdeal.Read
import proofs.«179115_j41712722378993_1_alg».proof.Proof.GruCell
import proofs.«179115_j41712722378993_1_alg».proof.Proof.KernelRow
import proofs.«179115_j41712722378993_1_alg».proof.Proof.KernelArray
import proofs.«179115_j41712722378993_1_alg».proof.Proof.RefGru
import Idealize.ShloMosaic.Adequacy
import Idealize.ShloMosaic.Init

noncomputable section

namespace Cert.Proof

open Idealize.ShloMosaic Idealize.SL.Sem Cert.Kernel

/-- The word-level kernel terminates without a fault and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization ledger is empty. -/
theorem preserves : Cert.preserves_Kernel_KernelIdeal := trivial

/-- From memories that agree on the twelve arguments, the kernel's output array and the reference's result are both
    `Cert.Gru.result` of those arguments. -/
theorem algebraic : Cert.algebraic_KernelIdeal_ReferenceIdeal := by
  intro m ρ m' ρ' _ hagree
  refine ⟨fun c => Cert.KernelIdeal.ArrayValue.final m c, Cert.KernelIdeal.ArrayValue.run m ρ, ?_⟩
  refine (θ_run Cert.ReferenceIdeal.defs _ _).mono (fun _ h c => ⟨(h c).1.trans ?_, (h c).2⟩) (Cert.ReferenceIdeal.Value.run (F := Ideal) m' ρ')
  obtain ⟨h0, h1, h2, h3, h4, h5, h6, h7, h8, h9, h10, h11⟩ := hagree c
  rw [Cert.ReferenceIdeal.Read.val_main_v78_eq, Cert.ReferenceIdeal.RefValue.val_eq_result, h0, h1, h2, h3, h4, h5, h6, h7, h8, h9, h10, h11]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
